-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S3x128x64 : Shape := ⟨3, ![3, 128, 64]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_

variable [Facts]

def fn {F : FTy → Type} [FloatOps F] (main_arg0 : FVec F S4x4096x128 .f32) (main_arg1 : FVec F S3x128x64 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S3x128x64 .f32 := Host.absf main_arg1
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  main_v8
-- ==== Kernel.lean ====
abbrev S4x4096x128 : Shape := ⟨3, ![4, 4096, 128]⟩
abbrev S3x128x64 : Shape := ⟨3, ![3, 128, 64]⟩
abbrev S4x4096x64 : Shape := ⟨3, ![4, 4096, 64]⟩
abbrev S1x256x128 : Shape := ⟨3, ![1, 256, 128]⟩
abbrev S1x4096x128 : Shape := ⟨3, ![1, 4096, 128]⟩
abbrev S1x256x64 : Shape := ⟨3, ![1, 256, 64]⟩
abbrev S4096x64 : Shape := ⟨2, ![4096, 64]⟩
abbrev S4096x128 : Shape := ⟨2, ![4096, 128]⟩
abbrev S1x128x64 : Shape := ⟨3, ![1, 128, 64]⟩
abbrev S128x64 : Shape := ⟨2, ![128, 64]⟩
abbrev S256x128 : Shape := ⟨2, ![256, 128]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x128, .f32⟩
  | .hbm, ⟨1, _⟩ => ⟨S3x128x64, .f32⟩
  | .hbm, ⟨2, _⟩ => ⟨S4x4096x64, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x4096x128, .f32⟩
  | .local _ .vmem, ⟨4, _⟩ => ⟨S3x128x64, .f32⟩
  | .local _ .vmem, ⟨5, _⟩ => ⟨S1x256x64, .f32⟩
  | .local _ .vmem, ⟨6, _⟩ => ⟨S1x256x64, .f32⟩
  | .local _ .vmem, ⟨7, _⟩ => ⟨S4096x64, .bf16⟩
  | .local _ .vmem, ⟨8, _⟩ => ⟨S4096x64, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S3x128x64_S3x128x64_0_0_0 : ∀ a, (![0, 0, 0] : Fin 3 → Nat) a + S3x128x64.size a ≤ S3x128x64.size a
  h_S3x128x64 : 0 < S3x128x64.numel
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  slices_S3x128x64_o1_0_0_S1x128x64 : S3x128x64.Slices ![1, 0, 0] S1x128x64
  shapeCasts_S1x128x64_S128x64 : S1x128x64.ShapeCasts S128x64
  slices_S3x128x64_o2_0_0_S1x128x64 : S3x128x64.Slices ![2, 0, 0] S1x128x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  slices_S3x128x64_o0_0_0_S1x128x64 : S3x128x64.Slices ![0, 0, 0] S1x128x64
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S4096x128_S128x64_S4096x64_1_0_0_1_n_n_wf : DotDims.WF S4096x128 S128x64 S4096x64 [1] [0] [0] [1] [] []
  dot_S256x128_S128x64_S256x64_1_0_0_1_n_n_wf : DotDims.WF S256x128 S128x64 S256x64 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x4096x128.size a
  hwx0_0 : ∀ i : grid0.Coords, EltTy.bits .f32 = 32 ∨ (Rect.block (s := S4x4096x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x64.size a ≤ S3x128x64.size a
  hwx0_2 : ∀ i : grid0.Coords, EltTy.bits .f32 = 32 ∨ (Rect.block (s := S3x128x64) S3x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S4x4096x64.size a
  hwx0_3 : ∀ i : grid0.Coords, EltTy.bits .f32 = 32 ∨ (Rect.block (s := S4x4096x64) S1x256x64.size (cc0_transform_3 i) (hinb0_3 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3x128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S3x128x64 : Shape := ⟨3, ![3, 128, 64]⟩
abbrev S1x128x64 : Shape := ⟨3, ![1, 128, 64]⟩
abbrev S128x64 : Shape := ⟨2, ![128, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S3x128x64, .f32⟩
  | .hbm, ⟨2, _⟩ => ⟨S1x128x64, .f32⟩
  | .hbm, ⟨3, _⟩ => ⟨S128x64, .f32⟩
  | .hbm, ⟨4, _⟩ => ⟨S4x4096x64, .f32⟩
  | .hbm, ⟨5, _⟩ => ⟨S1x128x64, .f32⟩
  | .hbm, ⟨6, _⟩ => ⟨S128x64, .f32⟩
  | .hbm, ⟨7, _⟩ => ⟨S4x4096x64, .f32⟩
  | .hbm, ⟨8, _⟩ => ⟨S1x128x64, .f32⟩
  | .hbm, ⟨9, _⟩ => ⟨S128x64, .f32⟩
  | .hbm, ⟨10, _⟩ => ⟨S4x4096x64, .f32⟩
  | .hbm, ⟨11, _⟩ => ⟨S4x4096x4096, .f32⟩
  | .hbm, ⟨12, _⟩ => ⟨S_, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x64, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S128x64_S4x4096x64_2_0_01_1_n_n_wf : DotDims.WF S4x4096x128 S128x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x128_S128x64_S4x4096x64_2_0_01_1_n_n : DotDims S4x4096x128 S128x64 S4x4096x64 where
  lhsContracting := [2]
  rhsContracting := [0]
  lhsNonContracting := [0, 1]
  rhsNonContracting := [1]
  lhsBatch := []
  rhsBatch := []
  wf := dot_S4x4096x128_S128x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.FrameK.Sched.lean ====
/-
  The schedule of the fused attention kernel on its 4 × 16 grid, and the vocabulary the rest of the frame is
  stated over: the argument arrays as the region finds them, each window's block of its array at a point,
  the branch condition (the inner coordinate is zero: the first query tile of a batch), that no window is
  ever idle, the staging and scratch memrefs, and that the full key/value block and the weights do not move
  between the points of one batch.
-/
import proofs.«405519_j91182155694380_3_alg».proof.Proof.Gen.Kernel.Launch
import proofs.«405519_j91182155694380_3_alg».proof.Proof.Gen.Kernel.Skeleton
import proofs.«405519_j91182155694380_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s array contents when the region is entered: @main is the region alone, so the launch contents. -/
abbrev V (c : Dev nD) (b : Ref sig .tc) : Buf (Elt F) ((c : Thread nD τ).loc b) := m ((c : Thread nD τ).loc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: the inner grid coordinate (the query tile within the batch) is zero. -/
abbrev cond0 (i : grid0.Coords) : Prop :=
  (Scalar.cmpi .ne (Scalar.extui (Scalar.cmpi .eq (BitVec.ofNat 32 (i 1).val) 0#32)) 0#32) = 1#1

/-- It holds exactly at the points ≡ 0 (mod 16): the first tile of each of the four batches. -/
theorem hcond0 : ∀ t : Fin cfg0.N, cond0 (grid0.coords t) ↔ t.val % 16 = 0 :=
  (by decide +kernel : ∀ t : Fin grid0.N, cond0 (grid0.coords t) ↔ t.val % 16 = 0)

/-- No window is idle at any point. -/
theorem live0 : ∀ (w : Fin cfg0.W) (i : grid0.Coords), cfg0.idle w i = false := fun _ _ => rfl

/-- The staging memref each window is on at point `t`, and its wholeness. -/
abbrev ms0 (t : Fin cfg0.N) : Memref sig .tc .vmem S1x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x64 .f32 := win0_3.stage (cfg0.slots t 3)
abbrev hs3 (t : Fin cfg0.N) : (ms3 t).IsWhole := hstage0_3 ((cfg0.slots t 3).cast nbuf0_3)
/-- The two scratch buffers (keys, values of the current batch). -/
abbrev scK : Memref sig .tc .vmem S4096x64 .bf16 := Memref.whole cc0_scratch0
abbrev scV : Memref sig .tc .vmem S4096x64 .bf16 := Memref.whole cc0_scratch1

/-- The core's scoped buffers that are no staging buffer: the two scratch buffers, at some contents each. -/
theorem Phi0_eq (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d)) := by
  rw [scopedRest0_eq]; simp only [scK, scV, owns_whole]; try rfl

/-- @main is the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

/-- One store through the whole-shape rectangle at zero offsets leaves its payload, whatever was there. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

end Cert.Kernel.Hand

end
-- ==== Proof.FrameK.Data.lean ====
/-
  The proof data of the fused attention kernel's one pipeline, in closed form. After the body at point `t`
  (batch `t / 16`, query tile `t % 16`): every input's staging buffer still holds its block; the output's
  holds the attention of the tile's projected queries against the batch's projected keys and values; and the
  two scratch buffers hold those keys and values — computed at the batch's first tile from the full block and
  the weights, and merely kept at its other tiles, where the full block and the weights have not moved.
-/
import proofs.«405519_j91182155694380_3_alg».proof.Proof.FrameK.Sched

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The blocks at point `t`, at their literal types: the query tile, the batch's full activations, the weights. -/
abbrev xtile (c : Dev nD) (t : Fin cfg0.N) : Vec F S1x256x128 .f32 := iblk m c 0 t
abbrev xfull (c : Dev nD) (t : Fin cfg0.N) : Vec F S1x4096x128 .f32 := iblk m c 1 t
abbrev wts (c : Dev nD) (t : Fin cfg0.N) : Vec F S3x128x64 .f32 := iblk m c 2 t

/-- The keys and the values of point `t`'s batch, and the output tile of point `t`. -/
def kAt (c : Dev nD) (t : Fin cfg0.N) : Vec F S4096x64 .bf16 := k0_pay2 (wts m c t) (xfull m c t)
def vAt (c : Dev nD) (t : Fin cfg0.N) : Vec F S4096x64 .bf16 := k0_pay3 (wts m c t) (xfull m c t)
def outAt (c : Dev nD) (t : Fin cfg0.N) : Vec F S1x256x64 .f32 := k0_pay4 (wts m c t) (xtile m c t) (kAt m c t) (vAt m c t)

/-- The region invariant before position `n`: before the first point the scratch buffers hold anything; after
    point `n` they hold that point's batch's keys and values. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare (kAt m c ⟨n, hn⟩) ∗ owns (c : Thread nD τ) scV fullShare (vAt m c ⟨n, hn⟩))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare (kAt m c ⟨n, hn⟩) ∗ owns (c : Thread nD τ) scV fullShare (vAt m c ⟨n, hn⟩)) := rfl

theorem PhiS_pos (c : Dev nD) (n : ℕ) (h : n ≤ cfg0.N) (hz : n ≠ 0) :
    PhiS m c n h = iprop(owns (c : Thread nD τ) scK fullShare (kAt m c ⟨n - 1, by omega⟩) ∗ owns (c : Thread nD τ) scV fullShare (vAt m c ⟨n - 1, by omega⟩)) := by
  cases n with
  | zero => exact absurd rfl hz
  | succ n => rfl

/-- The proof data. The activations' array is read by two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- A fetch at `t` fills a window's buffer with its block. -/
theorem fetched0 (c : Dev nD) (t : Fin cfg0.N) (d) : (dats m 0 c).fetched 0 t d = iblk m c 0 t := by
  unfold Dat.fetched Dat.blockOf iblk; rw [A_eq]; try rfl
theorem fetched1 (c : Dev nD) (t : Fin cfg0.N) (d) : (dats m 0 c).fetched 1 t d = iblk m c 1 t := by
  unfold Dat.fetched Dat.blockOf iblk; rw [A_eq]; try rfl
theorem fetched2 (c : Dev nD) (t : Fin cfg0.N) (d) : (dats m 0 c).fetched 2 t d = iblk m c 2 t := by
  unfold Dat.fetched Dat.blockOf iblk; rw [A_eq]; try rfl

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (fetched0 m c t d)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (fetched1 m c t d)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (fetched2 m c t d)

/-- Off a batch's first tile the full block has not moved since the point before; -/
theorem xfull_pred (c : Dev nD) (t : Fin cfg0.N) (h : ¬t.val % 16 = 0) :
    iblk m c 1 ⟨t.val - 1, Nat.lt_of_le_of_lt (Nat.sub_le _ _) t.isLt⟩ = iblk m c 1 t := by
  have hf : (cfg0.win 1).fetch t = false := by
    rw [Bool.eq_false_iff]; exact fun h' => h ((fetch0_1 t).mp h')
  obtain ⟨_, hix⟩ := (cfg0.win 1).index_eq_of_fetch rfl t hf
  have e := (dats m 0 c).fetched_congr 1 hix rfl (fun _ => Classical.arbitrary _)
  rw [fetched1, fetched1] at e
  exact e.symm

/-- and the weights never move after the first point. -/
theorem wts_pred (c : Dev nD) (t : Fin cfg0.N) (h : ¬t.val = 0) :
    iblk m c 2 ⟨t.val - 1, Nat.lt_of_le_of_lt (Nat.sub_le _ _) t.isLt⟩ = iblk m c 2 t := by
  have hN : t.val < 64 := lt_of_lt_of_eq t.isLt (show cfg0.N = 64 from N_0)
  have hf : (cfg0.win 2).fetch t = false := by
    rw [Bool.eq_false_iff]; exact fun h' => h (by have := (fetch0_2 t).mp h'; omega)
  obtain ⟨_, hix⟩ := (cfg0.win 2).index_eq_of_fetch rfl t hf
  have e := (dats m 0 c).fetched_congr 2 hix rfl (fun _ => Classical.arbitrary _)
  rw [fetched2, fetched2] at e
  exact e.symm

/-- So off a batch's first tile the keys and values are those of the point before. -/
theorem kAt_pred (c : Dev nD) (t : Fin cfg0.N) (h : ¬t.val % 16 = 0) :
    kAt m c ⟨t.val - 1, Nat.lt_of_le_of_lt (Nat.sub_le _ _) t.isLt⟩ = kAt m c t := by
  have h0 : ¬t.val = 0 := fun e => h (by rw [e])
  unfold kAt xfull wts; rw [xfull_pred m c t h, wts_pred m c t h0]
theorem vAt_pred (c : Dev nD) (t : Fin cfg0.N) (h : ¬t.val % 16 = 0) :
    vAt m c ⟨t.val - 1, Nat.lt_of_le_of_lt (Nat.sub_le _ _) t.isLt⟩ = vAt m c t := by
  have h0 : ¬t.val = 0 := fun e => h (by rw [e])
  unfold vAt xfull wts; rw [xfull_pred m c t h, wts_pred m c t h0]

end Cert.Kernel.Hand

end
-- ==== Proof.FrameK.RunB.lean ====
/-
  The kernel body at a point that is NOT the first query tile of its batch: the branch that recomputes the
  keys and values is skipped, the two scratch buffers are only read, and the output tile is stored once,
  whole: the attention of the tile's projected queries against the scratch's keys and values.
-/
import proofs.«405519_j91182155694380_3_alg».proof.Proof.FrameK.Sched

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The zero offsets, however spelt. -/
theorem hz3 : (![0, 0, 0] : Fin 3 → Nat) = fun _ => 0 := by funext a; fin_cases a <;> rfl
theorem hz2 : (![0, 0] : Fin 2 → Nat) = fun _ => 0 := by funext a; fin_cases a <;> rfl

set_option maxHeartbeats 1000000 in
/-- On whole memrefs at any contents, with the inner coordinate nonzero, the body runs to its end leaving
    every buffer as it was but the output tile's, which holds the attention payload of the loaded values. -/
theorem runB (c : Dev nD) (i : grid0.Coords) (arg2 : Memref sig .tc .vmem S1x256x128 .f32) (harg2 : arg2.IsWhole) (arg3 : Memref sig .tc .vmem S1x4096x128 .f32) (harg3 : arg3.IsWhole) (arg4 : Memref sig .tc .vmem S3x128x64 .f32) (harg4 : arg4.IsWhole) (arg5 : Memref sig .tc .vmem S1x256x64 .f32) (harg5 : arg5.IsWhole) (arg6 : Memref sig .tc .vmem S4096x64 .bf16) (harg6 : arg6.IsWhole) (arg7 : Memref sig .tc .vmem S4096x64 .bf16) (harg7 : arg7.IsWhole) (hc : ¬cond0 i)
    (x2 : Vec F S1x256x128 .f32) (x3 : Vec F S1x4096x128 .f32) (x4 : Vec F S3x128x64 .f32) (x5 : Vec F S1x256x64 .f32) (x6 x7 : Vec F S4096x64 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x4 x2 x6 x7) ∗ owns (c : Thread nD τ) arg6 fullShare x6 ∗ owns (c : Thread nD τ) arg7 fullShare x7) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_whole _ _ hz3]
    simp only [View.readAt_eq_ld, Memref.IsWhole.read_unread, View.ld_unit_zero (S := S3x128x64) hz3, View.ld_unit_zero (S := S1x256x128) hz3, View.ld_unit_zero (S := S4096x64) hz2]
  isplitl [H6]
  · iexists _; isplitr; · ipureintro; exact harg6.read_unread _
    iexact H6
  iexists _; isplitr; · ipureintro; exact harg7.read_unread _
  iexact H7

end Cert.Kernel.Hand

end
-- ==== Proof.FrameK.RunA.lean ====
/-
  The kernel body at the first query tile of a batch: the branch is taken, the batch's keys and values are
  computed from the full activation block and the weights and stored whole into the two scratch buffers,
  which the rest of the body then reads back; the output tile is stored once, whole.
-/
import proofs.«405519_j91182155694380_3_alg».proof.Proof.FrameK.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 1000000 in
/-- On whole memrefs at any contents, with the inner coordinate zero, the body runs to its end leaving the
    inputs as they were, the scratch buffers at the projected keys and values of the full block, and the
    output tile at the attention payload over those. -/
theorem runA (c : Dev nD) (i : grid0.Coords) (arg2 : Memref sig .tc .vmem S1x256x128 .f32) (harg2 : arg2.IsWhole) (arg3 : Memref sig .tc .vmem S1x4096x128 .f32) (harg3 : arg3.IsWhole) (arg4 : Memref sig .tc .vmem S3x128x64 .f32) (harg4 : arg4.IsWhole) (arg5 : Memref sig .tc .vmem S1x256x64 .f32) (harg5 : arg5.IsWhole) (arg6 : Memref sig .tc .vmem S4096x64 .bf16) (harg6 : arg6.IsWhole) (arg7 : Memref sig .tc .vmem S4096x64 .bf16) (harg7 : arg7.IsWhole) (hc : cond0 i)
    (x2 : Vec F S1x256x128 .f32) (x3 : Vec F S1x4096x128 .f32) (x4 : Vec F S3x128x64 .f32) (x5 : Vec F S1x256x64 .f32) (x6 x7 : Vec F S4096x64 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x4 x2 (k0_pay2 x4 x3) (k0_pay3 x4 x3))
            ∗ owns (c : Thread nD τ) arg6 fullShare (k0_pay2 x4 x3) ∗ owns (c : Thread nD τ) arg7 fullShare (k0_pay3 x4 x3)) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_writes_whole _ _ hz3]
    simp only [View.readAt_eq_ld, Memref.IsWhole.read_unread, View.ld_unit_zero (S := S3x128x64) hz3, View.ld_unit_zero (S := S1x256x128) hz3, View.ld_unit_zero (S := S1x4096x128) hz3, View.readCov_unit_zero (S := S4096x64) _ hz2]
  isplitl [H6]
  · iexists _; isplitr
    swap; · iexact H6
    ipureintro
    sl_unfold_words
    rw [read_writes_whole _ _ hz2]
    simp only [View.readAt_eq_ld, Memref.IsWhole.read_unread, View.ld_unit_zero (S := S3x128x64) hz3, View.ld_unit_zero (S := S1x4096x128) hz3]
  iexists _; isplitr
  swap; · iexact H7
  ipureintro
  sl_unfold_words
  rw [read_writes_whole _ _ hz2]
  simp only [View.readAt_eq_ld, Memref.IsWhole.read_unread, View.ld_unit_zero (S := S3x128x64) hz3, View.ld_unit_zero (S := S1x4096x128) hz3]

end Cert.Kernel.Hand

end
-- ==== Proof.FrameK.Body.lean ====
/-
  The body obligation of the fused attention kernel's pipeline: at every grid point, from the invariant and
  the four windows' current staging buffers at their blocks, the body runs to the invariant of the next
  point and the buffers at what the proof data says. At a batch's first tile the body recomputes the keys
  and values from the full block and the weights, whatever the scratch held; at the other tiles the scratch
  holds the keys and values of the point before, which are this point's (the blocks have not moved).
-/
import proofs.«405519_j91182155694380_3_alg».proof.Proof.FrameK.Data
import proofs.«405519_j91182155694380_3_alg».proof.Proof.FrameK.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  by_cases h0 : t.val % 16 = 0
  · -- the first tile of a batch: the scratch is recomputed, whatever it held
    have hpre : (dats m 0 c).Φ t.castSucc ⊢ (iprop((∃ d, owns (c : Thread nD τ) scK fullShare d) ∗ (∃ d, owns (c : Thread nD τ) scV fullShare d)) : sProp 𝕄) := by
      rw [PhiS_castSucc m c t]
      by_cases hz : t.val = 0
      · rw [PhiS_zero m c _ _ hz, Phi0_eq]
      · rw [PhiS_pos m c _ _ hz]
        iintro ⟨HK, HV⟩
        isplitl [HK]
        · iexists _; iexact HK
        · iexists _; iexact HV
    iintro ⟨HP, Ho, ⟨%d0, H0⟩, ⟨%d1, H1⟩, ⟨%d2, H2⟩, ⟨%d3, H3⟩⟩
    ihave HP' := hpre $$ HP
    icases HP' with ⟨⟨%dk, HK⟩, ⟨%dv, HV⟩⟩
    iapply (runA c (grid0.coords t) _ _ _ _ _ _ _ _ _ _ _ _ ((hcond0 t).mpr h0) (iblk m c 0 t) (iblk m c 1 t) (iblk m c 2 t) _ dk dv Set.univ _)
    isplitl [H0]; · iexact H0
    isplitl [H1]; · iexact H1
    isplitl [H2]; · iexact H2
    isplitl [H3]; · iexact H3
    isplitl [HK]; · iexact HK
    isplitl [HV]; · iexact HV
    iintro ⟨H0, H1, H2, H3, HK, HV⟩
    isplitl [HK HV]
    · isplitl [HK]
      · iexact HK
      · iexact HV
    isplitl [Ho]; · iexact Ho
    isplitl [H0]; · iexact H0
    isplitl [H1]; · iexact H1
    isplitl [H2]; · iexact H2
    iexact H3
  · -- a later tile: the scratch holds the batch's keys and values already
    have hz : t.val ≠ 0 := fun e => h0 (by rw [e])
    rw [PhiS_castSucc m c t, PhiS_pos m c _ _ hz, kAt_pred m c t h0, vAt_pred m c t h0]
    iintro ⟨⟨HK, HV⟩, Ho, ⟨%d0, H0⟩, ⟨%d1, H1⟩, ⟨%d2, H2⟩, ⟨%d3, H3⟩⟩
    iapply (runB c (grid0.coords t) _ _ _ _ _ _ _ _ _ _ _ _ (fun h => h0 ((hcond0 t).mp h)) (iblk m c 0 t) (iblk m c 1 t) (iblk m c 2 t) _ (kAt m c t) (vAt m c t) Set.univ _)
    isplitl [H0]; · iexact H0
    isplitl [H1]; · iexact H1
    isplitl [H2]; · iexact H2
    isplitl [H3]; · iexact H3
    isplitl [HK]; · iexact HK
    isplitl [HV]; · iexact HV
    iintro ⟨H0, H1, H2, H3, HK, HV⟩
    isplitl [HK HV]
    · isplitl [HK]
      · iexact HK
      · iexact HV
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.Launch.lean ====
/-
  The launch of the fused attention kernel's region and the frame claim. The activations' array is handed
  to the kernel through two windows (a query tile and the batch's full block): its one buffer, held whole
  at entry, is dealt to them in halves. Nothing but the window arrays is unscoped, the kernel has no
  semaphore of its own, and the invariant is the two scratch buffers; so the region runs to a state in
  which every window's array holds what the proof data computes, and an input array is never written.
-/
import proofs.«405519_j91182155694380_3_alg».proof.Proof.FrameK.Body
import Idealize.ShloMosaic.Lib.Pipeline.Launch
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at entry, make the pipeline's arrays: the activations'
    full share splits into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg0, main_arg1, main_v0} from by decide]
  rw [BI.bigSep_insert (by decide), BI.bigSep_insert (by decide), BI.bigSep_singleton]
  rw [(arr_whole0 0).set_eq_univ, (arr_whole0 2).set_eq_univ, (arr_whole0 3).set_eq_univ]
  show (iprop((((c.tc : Thread nD τ).loc main_arg0) ↦{fullShare} V m c main_arg0) ∗ (((c.tc : Thread nD τ).loc main_arg1) ↦{fullShare} V m c main_arg1)
    ∗ (((c.tc : Thread nD τ).loc main_v0) ↦{fullShare} V m c main_v0)) : sProp 𝕄) ⊢ _
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

set_option backward.isDefEq.respectTransparency.types false in
/-- Every weakly fair execution of @main terminates, and in every final state each window's array holds what
    the proof data computes for it after the last point. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (Nat.le_refl _) from rfl,
        PhiS_pos m c _ _ (by rw [show cfg0.N = 64 from N_0]; decide), Phi0_eq]
      iintro ⟨HK, HV⟩
      isplitr; · iempintro
      isplitl [HK]
      · iexists _; iexact HK
      · iexists _; iexact HV)
    (QY := fun _ _ => True)
    (hY := fun c s' => by
      iintro ⟨-, -, HSI⟩; imodintro
      isplitr; · ipureintro; trivial
      iexact HSI)
    (hQ := fun s h c w => (h c).1 w)

/-- An input window's array is never written: it ends at its launch contents. -/
theorem arrAt_in0 (c : Dev nD) : (dats m 0 c).arrAt 0 cfg0.N = m ((c.tc : Thread nD τ).loc main_arg0) :=
  ((dats m 0 c).arrAt_in 0 rfl _).trans (A_eq m c 0)
theorem arrAt_in2 (c : Dev nD) : (dats m 0 c).arrAt 2 cfg0.N = m ((c.tc : Thread nD τ).loc main_arg1) :=
  ((dats m 0 c).arrAt_in 2 rfl _).trans (A_eq m c 2)

/-- THE FRAME: the program runs to its end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (arrAt_in0 m c), (h c 2).trans (arrAt_in2 m c)⟩) (run_main m ρ)

end Cert.Kernel.Hand

end
-- ==== Proof.FrameKI.Sched.lean ====
/-
  The schedule of the fused attention kernel on its 4 × 16 grid, and the vocabulary the rest of the frame is
  stated over: the argument arrays as the region finds them, each window's block of its array at a point,
  the branch condition (the inner coordinate is zero: the first query tile of a batch), that no window is
  ever idle, the staging and scratch memrefs, and that the full key/value block and the weights do not move
  between the points of one batch.
-/
import proofs.«405519_j91182155694380_3_alg».proof.Proof.Gen.KernelIdeal.Launch
import proofs.«405519_j91182155694380_3_alg».proof.Proof.Gen.KernelIdeal.Skeleton
import proofs.«405519_j91182155694380_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s array contents when the region is entered: @main is the region alone, so the launch contents. -/
abbrev V (c : Dev nD) (b : Ref sig .tc) : Buf (Elt F) ((c : Thread nD τ).loc b) := m ((c : Thread nD τ).loc b)

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: the inner grid coordinate (the query tile within the batch) is zero. -/
abbrev cond0 (i : grid0.Coords) : Prop :=
  (Scalar.cmpi .ne (Scalar.extui (Scalar.cmpi .eq (BitVec.ofNat 32 (i 1).val) 0#32)) 0#32) = 1#1

/-- It holds exactly at the points ≡ 0 (mod 16): the first tile of each of the four batches. -/
theorem hcond0 : ∀ t : Fin cfg0.N, cond0 (grid0.coords t) ↔ t.val % 16 = 0 :=
  (by decide +kernel : ∀ t : Fin grid0.N, cond0 (grid0.coords t) ↔ t.val % 16 = 0)

/-- No window is idle at any point. -/
theorem live0 : ∀ (w : Fin cfg0.W) (i : grid0.Coords), cfg0.idle w i = false := fun _ _ => rfl

/-- The staging memref each window is on at point `t`, and its wholeness. -/
abbrev ms0 (t : Fin cfg0.N) : Memref sig .tc .vmem S1x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x64 .f32 := win0_3.stage (cfg0.slots t 3)
abbrev hs3 (t : Fin cfg0.N) : (ms3 t).IsWhole := hstage0_3 ((cfg0.slots t 3).cast nbuf0_3)
/-- The two scratch buffers (keys, values of the current batch). -/
abbrev scK : Memref sig .tc .vmem S4096x64 .bf16 := Memref.whole cc0_scratch0
abbrev scV : Memref sig .tc .vmem S4096x64 .bf16 := Memref.whole cc0_scratch1

/-- The core's scoped buffers that are no staging buffer: the two scratch buffers, at some contents each. -/
theorem Phi0_eq (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d)) := by
  rw [scopedRest0_eq]; simp only [scK, scV, owns_whole]; try rfl

/-- @main is the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

/-- One store through the whole-shape rectangle at zero offsets leaves its payload, whatever was there. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

end Cert.KernelIdeal.Hand

end
-- ==== Proof.FrameKI.Data.lean ====
/-
  The proof data of the fused attention kernel's one pipeline, in closed form. After the body at point `t`
  (batch `t / 16`, query tile `t % 16`): every input's staging buffer still holds its block; the output's
  holds the attention of the tile's projected queries against the batch's projected keys and values; and the
  two scratch buffers hold those keys and values — computed at the batch's first tile from the full block and
  the weights, and merely kept at its other tiles, where the full block and the weights have not moved.
-/
import proofs.«405519_j91182155694380_3_alg».proof.Proof.FrameKI.Sched

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The blocks at point `t`, at their literal types: the query tile, the batch's full activations, the weights. -/
abbrev xtile (c : Dev nD) (t : Fin cfg0.N) : Vec F S1x256x128 .f32 := iblk m c 0 t
abbrev xfull (c : Dev nD) (t : Fin cfg0.N) : Vec F S1x4096x128 .f32 := iblk m c 1 t
abbrev wts (c : Dev nD) (t : Fin cfg0.N) : Vec F S3x128x64 .f32 := iblk m c 2 t

/-- The keys and the values of point `t`'s batch, and the output tile of point `t`. -/
def kAt (c : Dev nD) (t : Fin cfg0.N) : Vec F S4096x64 .bf16 := k0_pay2 (wts m c t) (xfull m c t)
def vAt (c : Dev nD) (t : Fin cfg0.N) : Vec F S4096x64 .bf16 := k0_pay3 (wts m c t) (xfull m c t)
def outAt (c : Dev nD) (t : Fin cfg0.N) : Vec F S1x256x64 .f32 := k0_pay4 (wts m c t) (xtile m c t) (kAt m c t) (vAt m c t)

/-- The region invariant before position `n`: before the first point the scratch buffers hold anything; after
    point `n` they hold that point's batch's keys and values. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare (kAt m c ⟨n, hn⟩) ∗ owns (c : Thread nD τ) scV fullShare (vAt m c ⟨n, hn⟩))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare (kAt m c ⟨n, hn⟩) ∗ owns (c : Thread nD τ) scV fullShare (vAt m c ⟨n, hn⟩)) := rfl

theorem PhiS_pos (c : Dev nD) (n : ℕ) (h : n ≤ cfg0.N) (hz : n ≠ 0) :
    PhiS m c n h = iprop(owns (c : Thread nD τ) scK fullShare (kAt m c ⟨n - 1, by omega⟩) ∗ owns (c : Thread nD τ) scV fullShare (vAt m c ⟨n - 1, by omega⟩)) := by
  cases n with
  | zero => exact absurd rfl hz
  | succ n => rfl

/-- The proof data. The activations' array is read by two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- A fetch at `t` fills a window's buffer with its block. -/
theorem fetched0 (c : Dev nD) (t : Fin cfg0.N) (d) : (dats m 0 c).fetched 0 t d = iblk m c 0 t := by
  unfold Dat.fetched Dat.blockOf iblk; rw [A_eq]; try rfl
theorem fetched1 (c : Dev nD) (t : Fin cfg0.N) (d) : (dats m 0 c).fetched 1 t d = iblk m c 1 t := by
  unfold Dat.fetched Dat.blockOf iblk; rw [A_eq]; try rfl
theorem fetched2 (c : Dev nD) (t : Fin cfg0.N) (d) : (dats m 0 c).fetched 2 t d = iblk m c 2 t := by
  unfold Dat.fetched Dat.blockOf iblk; rw [A_eq]; try rfl

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (fetched0 m c t d)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (fetched1 m c t d)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (fetched2 m c t d)

/-- Off a batch's first tile the full block has not moved since the point before; -/
theorem xfull_pred (c : Dev nD) (t : Fin cfg0.N) (h : ¬t.val % 16 = 0) :
    iblk m c 1 ⟨t.val - 1, Nat.lt_of_le_of_lt (Nat.sub_le _ _) t.isLt⟩ = iblk m c 1 t := by
  have hf : (cfg0.win 1).fetch t = false := by
    rw [Bool.eq_false_iff]; exact fun h' => h ((fetch0_1 t).mp h')
  obtain ⟨_, hix⟩ := (cfg0.win 1).index_eq_of_fetch rfl t hf
  have e := (dats m 0 c).fetched_congr 1 hix rfl (fun _ => Classical.arbitrary _)
  rw [fetched1, fetched1] at e
  exact e.symm

/-- and the weights never move after the first point. -/
theorem wts_pred (c : Dev nD) (t : Fin cfg0.N) (h : ¬t.val = 0) :
    iblk m c 2 ⟨t.val - 1, Nat.lt_of_le_of_lt (Nat.sub_le _ _) t.isLt⟩ = iblk m c 2 t := by
  have hN : t.val < 64 := lt_of_lt_of_eq t.isLt (show cfg0.N = 64 from N_0)
  have hf : (cfg0.win 2).fetch t = false := by
    rw [Bool.eq_false_iff]; exact fun h' => h (by have := (fetch0_2 t).mp h'; omega)
  obtain ⟨_, hix⟩ := (cfg0.win 2).index_eq_of_fetch rfl t hf
  have e := (dats m 0 c).fetched_congr 2 hix rfl (fun _ => Classical.arbitrary _)
  rw [fetched2, fetched2] at e
  exact e.symm

/-- So off a batch's first tile the keys and values are those of the point before. -/
theorem kAt_pred (c : Dev nD) (t : Fin cfg0.N) (h : ¬t.val % 16 = 0) :
    kAt m c ⟨t.val - 1, Nat.lt_of_le_of_lt (Nat.sub_le _ _) t.isLt⟩ = kAt m c t := by
  have h0 : ¬t.val = 0 := fun e => h (by rw [e])
  unfold kAt xfull wts; rw [xfull_pred m c t h, wts_pred m c t h0]
theorem vAt_pred (c : Dev nD) (t : Fin cfg0.N) (h : ¬t.val % 16 = 0) :
    vAt m c ⟨t.val - 1, Nat.lt_of_le_of_lt (Nat.sub_le _ _) t.isLt⟩ = vAt m c t := by
  have h0 : ¬t.val = 0 := fun e => h (by rw [e])
  unfold vAt xfull wts; rw [xfull_pred m c t h, wts_pred m c t h0]

end Cert.KernelIdeal.Hand

end
-- ==== Proof.FrameKI.RunB.lean ====
/-
  The kernel body at a point that is NOT the first query tile of its batch: the branch that recomputes the
  keys and values is skipped, the two scratch buffers are only read, and the output tile is stored once,
  whole: the attention of the tile's projected queries against the scratch's keys and values.
-/
import proofs.«405519_j91182155694380_3_alg».proof.Proof.FrameKI.Sched

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The zero offsets, however spelt. -/
theorem hz3 : (![0, 0, 0] : Fin 3 → Nat) = fun _ => 0 := by funext a; fin_cases a <;> rfl
theorem hz2 : (![0, 0] : Fin 2 → Nat) = fun _ => 0 := by funext a; fin_cases a <;> rfl

set_option maxHeartbeats 1000000 in
/-- On whole memrefs at any contents, with the inner coordinate nonzero, the body runs to its end leaving
    every buffer as it was but the output tile's, which holds the attention payload of the loaded values. -/
theorem runB (c : Dev nD) (i : grid0.Coords) (arg2 : Memref sig .tc .vmem S1x256x128 .f32) (harg2 : arg2.IsWhole) (arg3 : Memref sig .tc .vmem S1x4096x128 .f32) (harg3 : arg3.IsWhole) (arg4 : Memref sig .tc .vmem S3x128x64 .f32) (harg4 : arg4.IsWhole) (arg5 : Memref sig .tc .vmem S1x256x64 .f32) (harg5 : arg5.IsWhole) (arg6 : Memref sig .tc .vmem S4096x64 .bf16) (harg6 : arg6.IsWhole) (arg7 : Memref sig .tc .vmem S4096x64 .bf16) (harg7 : arg7.IsWhole) (hc : ¬cond0 i)
    (x2 : Vec F S1x256x128 .f32) (x3 : Vec F S1x4096x128 .f32) (x4 : Vec F S3x128x64 .f32) (x5 : Vec F S1x256x64 .f32) (x6 x7 : Vec F S4096x64 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x4 x2 x6 x7) ∗ owns (c : Thread nD τ) arg6 fullShare x6 ∗ owns (c : Thread nD τ) arg7 fullShare x7) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_whole _ _ hz3]
    simp only [View.readAt_eq_ld, Memref.IsWhole.read_unread, View.ld_unit_zero (S := S3x128x64) hz3, View.ld_unit_zero (S := S1x256x128) hz3, View.ld_unit_zero (S := S4096x64) hz2]
  isplitl [H6]
  · iexists _; isplitr; · ipureintro; exact harg6.read_unread _
    iexact H6
  iexists _; isplitr; · ipureintro; exact harg7.read_unread _
  iexact H7

end Cert.KernelIdeal.Hand

end
-- ==== Proof.FrameKI.RunA.lean ====
/-
  The kernel body at the first query tile of a batch: the branch is taken, the batch's keys and values are
  computed from the full activation block and the weights and stored whole into the two scratch buffers,
  which the rest of the body then reads back; the output tile is stored once, whole.
-/
import proofs.«405519_j91182155694380_3_alg».proof.Proof.FrameKI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs at any contents, with the inner coordinate zero, the body runs to its end leaving the
    inputs as they were, the scratch buffers at the projected keys and values of the full block, and the
    output tile at the attention payload over those. -/
theorem runA (c : Dev nD) (i : grid0.Coords) (arg2 : Memref sig .tc .vmem S1x256x128 .f32) (harg2 : arg2.IsWhole) (arg3 : Memref sig .tc .vmem S1x4096x128 .f32) (harg3 : arg3.IsWhole) (arg4 : Memref sig .tc .vmem S3x128x64 .f32) (harg4 : arg4.IsWhole) (arg5 : Memref sig .tc .vmem S1x256x64 .f32) (harg5 : arg5.IsWhole) (arg6 : Memref sig .tc .vmem S4096x64 .bf16) (harg6 : arg6.IsWhole) (arg7 : Memref sig .tc .vmem S4096x64 .bf16) (harg7 : arg7.IsWhole) (hc : cond0 i)
    (x2 : Vec F S1x256x128 .f32) (x3 : Vec F S1x4096x128 .f32) (x4 : Vec F S3x128x64 .f32) (x5 : Vec F S1x256x64 .f32) (x6 x7 : Vec F S4096x64 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 x4 x2 (k0_pay2 x4 x3) (k0_pay3 x4 x3))
            ∗ owns (c : Thread nD τ) arg6 fullShare (k0_pay2 x4 x3) ∗ owns (c : Thread nD τ) arg7 fullShare (k0_pay3 x4 x3)) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_writes_whole _ _ hz3]
    simp only [View.readAt_eq_ld, Memref.IsWhole.read_unread, View.ld_unit_zero (S := S3x128x64) hz3, View.ld_unit_zero (S := S1x256x128) hz3, View.ld_unit_zero (S := S1x4096x128) hz3, View.readCov_unit_zero (S := S4096x64) _ hz2]
  isplitl [H6]
  · iexists _; isplitr
    swap; · iexact H6
    ipureintro
    sl_unfold_words
    rw [read_writes_whole _ _ hz2]
    simp only [View.readAt_eq_ld, Memref.IsWhole.read_unread, View.ld_unit_zero (S := S3x128x64) hz3, View.ld_unit_zero (S := S1x4096x128) hz3]
  iexists _; isplitr
  swap; · iexact H7
  ipureintro
  sl_unfold_words
  rw [read_writes_whole _ _ hz2]
  simp only [View.readAt_eq_ld, Memref.IsWhole.read_unread, View.ld_unit_zero (S := S3x128x64) hz3, View.ld_unit_zero (S := S1x4096x128) hz3]

end Cert.KernelIdeal.Hand

end
-- ==== Proof.FrameKI.Body.lean ====
/-
  The body obligation of the fused attention kernel's pipeline: at every grid point, from the invariant and
  the four windows' current staging buffers at their blocks, the body runs to the invariant of the next
  point and the buffers at what the proof data says. At a batch's first tile the body recomputes the keys
  and values from the full block and the weights, whatever the scratch held; at the other tiles the scratch
  holds the keys and values of the point before, which are this point's (the blocks have not moved).
-/
import proofs.«405519_j91182155694380_3_alg».proof.Proof.FrameKI.Data
import proofs.«405519_j91182155694380_3_alg».proof.Proof.FrameKI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  by_cases h0 : t.val % 16 = 0
  · -- the first tile of a batch: the scratch is recomputed, whatever it held
    have hpre : (dats m 0 c).Φ t.castSucc ⊢ (iprop((∃ d, owns (c : Thread nD τ) scK fullShare d) ∗ (∃ d, owns (c : Thread nD τ) scV fullShare d)) : sProp 𝕄) := by
      rw [PhiS_castSucc m c t]
      by_cases hz : t.val = 0
      · rw [PhiS_zero m c _ _ hz, Phi0_eq]
      · rw [PhiS_pos m c _ _ hz]
        iintro ⟨HK, HV⟩
        isplitl [HK]
        · iexists _; iexact HK
        · iexists _; iexact HV
    iintro ⟨HP, Ho, ⟨%d0, H0⟩, ⟨%d1, H1⟩, ⟨%d2, H2⟩, ⟨%d3, H3⟩⟩
    ihave HP' := hpre $$ HP
    icases HP' with ⟨⟨%dk, HK⟩, ⟨%dv, HV⟩⟩
    iapply (runA c (grid0.coords t) _ _ _ _ _ _ _ _ _ _ _ _ ((hcond0 t).mpr h0) (iblk m c 0 t) (iblk m c 1 t) (iblk m c 2 t) _ dk dv Set.univ _)
    isplitl [H0]; · iexact H0
    isplitl [H1]; · iexact H1
    isplitl [H2]; · iexact H2
    isplitl [H3]; · iexact H3
    isplitl [HK]; · iexact HK
    isplitl [HV]; · iexact HV
    iintro ⟨H0, H1, H2, H3, HK, HV⟩
    isplitl [HK HV]
    · isplitl [HK]
      · iexact HK
      · iexact HV
    isplitl [Ho]; · iexact Ho
    isplitl [H0]; · iexact H0
    isplitl [H1]; · iexact H1
    isplitl [H2]; · iexact H2
    iexact H3
  · -- a later tile: the scratch holds the batch's keys and values already
    have hz : t.val ≠ 0 := fun e => h0 (by rw [e])
    rw [PhiS_castSucc m c t, PhiS_pos m c _ _ hz, kAt_pred m c t h0, vAt_pred m c t h0]
    iintro ⟨⟨HK, HV⟩, Ho, ⟨%d0, H0⟩, ⟨%d1, H1⟩, ⟨%d2, H2⟩, ⟨%d3, H3⟩⟩
    iapply (runB c (grid0.coords t) _ _ _ _ _ _ _ _ _ _ _ _ (fun h => h0 ((hcond0 t).mp h)) (iblk m c 0 t) (iblk m c 1 t) (iblk m c 2 t) _ (kAt m c t) (vAt m c t) Set.univ _)
    isplitl [H0]; · iexact H0
    isplitl [H1]; · iexact H1
    isplitl [H2]; · iexact H2
    isplitl [H3]; · iexact H3
    isplitl [HK]; · iexact HK
    isplitl [HV]; · iexact HV
    iintro ⟨H0, H1, H2, H3, HK, HV⟩
    isplitl [HK HV]
    · isplitl [HK]
      · iexact HK
      · iexact HV
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.Launch.lean ====
/-
  The launch of the fused attention kernel's region and the frame claim. The activations' array is handed
  to the kernel through two windows (a query tile and the batch's full block): its one buffer, held whole
  at entry, is dealt to them in halves. Nothing but the window arrays is unscoped, the kernel has no
  semaphore of its own, and the invariant is the two scratch buffers; so the region runs to a state in
  which every window's array holds what the proof data computes, and an input array is never written.
-/
import proofs.«405519_j91182155694380_3_alg».proof.Proof.FrameKI.Body
import Idealize.ShloMosaic.Lib.Pipeline.Launch
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at entry, make the pipeline's arrays: the activations'
    full share splits into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg0, main_arg1, main_v0} from by decide]
  rw [BI.bigSep_insert (by decide), BI.bigSep_insert (by decide), BI.bigSep_singleton]
  rw [(arr_whole0 0).set_eq_univ, (arr_whole0 2).set_eq_univ, (arr_whole0 3).set_eq_univ]
  show (iprop((((c.tc : Thread nD τ).loc main_arg0) ↦{fullShare} V m c main_arg0) ∗ (((c.tc : Thread nD τ).loc main_arg1) ↦{fullShare} V m c main_arg1)
    ∗ (((c.tc : Thread nD τ).loc main_v0) ↦{fullShare} V m c main_v0)) : sProp 𝕄) ⊢ _
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

set_option backward.isDefEq.respectTransparency.types false in
/-- Every weakly fair execution of @main terminates, and in every final state each window's array holds what
    the proof data computes for it after the last point. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (Nat.le_refl _) from rfl,
        PhiS_pos m c _ _ (by rw [show cfg0.N = 64 from N_0]; decide), Phi0_eq]
      iintro ⟨HK, HV⟩
      isplitr; · iempintro
      isplitl [HK]
      · iexists _; iexact HK
      · iexists _; iexact HV)
    (QY := fun _ _ => True)
    (hY := fun c s' => by
      iintro ⟨-, -, HSI⟩; imodintro
      isplitr; · ipureintro; trivial
      iexact HSI)
    (hQ := fun s h c w => (h c).1 w)

/-- An input window's array is never written: it ends at its launch contents. -/
theorem arrAt_in0 (c : Dev nD) : (dats m 0 c).arrAt 0 cfg0.N = m ((c.tc : Thread nD τ).loc main_arg0) :=
  ((dats m 0 c).arrAt_in 0 rfl _).trans (A_eq m c 0)
theorem arrAt_in2 (c : Dev nD) : (dats m 0 c).arrAt 2 cfg0.N = m ((c.tc : Thread nD τ).loc main_arg1) :=
  ((dats m 0 c).arrAt_in 2 rfl _).trans (A_eq m c 2)

/-- THE FRAME: the program runs to its end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (arrAt_in0 m c), (h c 2).trans (arrAt_in2 m c)⟩) (run_main m ρ)

end Cert.KernelIdeal.Hand

end
-- ==== Proof.Spec.lean ====
/-
  The mathematics both programs compute, stated once over plain functions of `Fin` coordinates on the
  extended reals: a linear projection of a row, scaled dot-product attention of one query row against
  4096 key rows and value rows in its two arrangements — normalise the weighted sum (the kernel), or
  weight by normalised probabilities (the reference) — and the projections of the argument arrays.
-/
import Idealize.ShloMosaic.PureOps.Ideal
import Idealize.ShloMosaic.Lib.ValueIdx

noncomputable section

namespace Cert.Spec

open Idealize.ShloMosaic Idealize.ShloMosaic.ValueIdx

/-- The kernel's scale: the f32 word of 0.125. -/
def c8 : EReal := Ideal.ofBits .f32 0x3E000000#32
/-- The word of `-inf`, the row maximum's starting value. -/
def negInf : EReal := Ideal.ofBits .f32 0xFF800000#32
/-- The reference's divisor: the square root of the f32 word of 64. -/
def sqrt64 : EReal := Ideal.sqrt (Ideal.ofBits .f32 0x42800000#32)

/-- A row times a 128 × 64 matrix: entry `e` is `∑ d, xr d * w d e`. -/
def proj (xr : Fin 128 → EReal) (w : Fin 128 → Fin 64 → EReal) (e : Fin 64) : EReal :=
  ∑ d : Fin 128, xr d * w d e

/-- The maximum of a row of 4096 scores, folded from `-inf`. -/
def rowMax (s : Fin 4096 → EReal) : EReal := (Finset.univ : Finset (Fin 4096)).fold max negInf s

/-- The kernel's score of query row `q` against key row `k`: the dot product times 0.125. -/
def sK (q : Fin 64 → EReal) (K : Fin 4096 → Fin 64 → EReal) (k : Fin 4096) : EReal :=
  (∑ e : Fin 64, q e * K k e) * c8

/-- The reference's score: the dot product divided by `√64`. -/
def sR (q : Fin 64 → EReal) (K : Fin 4096 → Fin 64 → EReal) (k : Fin 4096) : EReal :=
  Ideal.div (∑ e : Fin 64, q e * K k e) sqrt64

/-- Attention as the kernel arranges it: the exponential-weighted sum of the value rows, divided by the
    sum of the weights. -/
def attK (q : Fin 64 → EReal) (K V : Fin 4096 → Fin 64 → EReal) (e : Fin 64) : EReal :=
  Ideal.div (∑ k : Fin 4096, Ideal.exp (sK q K k - rowMax (sK q K)) * V k e)
    (∑ k : Fin 4096, Ideal.exp (sK q K k - rowMax (sK q K)))

/-- Attention as the reference arranges it: each weight normalised first, then the weighted sum. -/
def attR (q : Fin 64 → EReal) (K V : Fin 4096 → Fin 64 → EReal) (e : Fin 64) : EReal :=
  ∑ k : Fin 4096,
    Ideal.div (Ideal.exp (sR q K k - rowMax (sR q K))) (∑ k' : Fin 4096, Ideal.exp (sR q K k' - rowMax (sR q K))) * V k e

/-- Row `r` of batch `b` of the activations. -/
def xrow (x : (⟨3, ![4, 4096, 128]⟩ : Shape).Idx → EReal) (b : Fin 4) (r : Fin 4096) : Fin 128 → EReal :=
  fun d => x (ix3 b r d)
/-- Matrix `s` (0 query, 1 key, 2 value) of the stacked weights. -/
def wmat (w : (⟨3, ![3, 128, 64]⟩ : Shape).Idx → EReal) (s : Fin 3) : Fin 128 → Fin 64 → EReal :=
  fun d e => w (ix3 s d e)

/-- The query row, the key rows and the value rows of batch `b`. -/
def Qf (x : (⟨3, ![4, 4096, 128]⟩ : Shape).Idx → EReal) (w : (⟨3, ![3, 128, 64]⟩ : Shape).Idx → EReal) (b : Fin 4) (r : Fin 4096) :
    Fin 64 → EReal := proj (xrow x b r) (wmat w 0)
def Kf (x : (⟨3, ![4, 4096, 128]⟩ : Shape).Idx → EReal) (w : (⟨3, ![3, 128, 64]⟩ : Shape).Idx → EReal) (b : Fin 4) :
    Fin 4096 → Fin 64 → EReal := fun k => proj (xrow x b k) (wmat w 1)
def Vf (x : (⟨3, ![4, 4096, 128]⟩ : Shape).Idx → EReal) (w : (⟨3, ![3, 128, 64]⟩ : Shape).Idx → EReal) (b : Fin 4) :
    Fin 4096 → Fin 64 → EReal := fun k => proj (xrow x b k) (wmat w 2)

/-- The whole result in the kernel's arrangement, and in the reference's. -/
def GK (x : (⟨3, ![4, 4096, 128]⟩ : Shape).Idx → EReal) (w : (⟨3, ![3, 128, 64]⟩ : Shape).Idx → EReal)
    (b : Fin 4) (r : Fin 4096) (e : Fin 64) : EReal := attK (Qf x w b r) (Kf x w b) (Vf x w b) e
def GR (x : (⟨3, ![4, 4096, 128]⟩ : Shape).Idx → EReal) (w : (⟨3, ![3, 128, 64]⟩ : Shape).Idx → EReal)
    (b : Fin 4) (r : Fin 4096) (e : Fin 64) : EReal := attR (Qf x w b r) (Kf x w b) (Vf x w b) e

end Cert.Spec

end
-- ==== Proof.Payload.lean ====
/-
  The kernel body's three stored values read at an index, at the ideal instance: the key rows and the value rows are
  the projection of an activation row by the second and third weight matrices, and the output row is the attention of
  the projected query row against the stored key rows and value rows, in the arrangement that divides the weighted sum
  by the sum of the weights.
-/
import proofs.«405519_j91182155694380_3_alg».proof.Proof.Gen.KernelIdeal.Skeleton
import proofs.«405519_j91182155694380_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## One weight matrix of the stack, and an activation block, as matrices -/

/-- Matrix `s` of the stacked weights, cut out, its unit axis dropped, its format changed: entry `(d, e)` is `W (s, d, e)`. -/
theorem wslice_apply (W : Vec Ideal S3x128x64 .f32) (s : Nat) (hs : s < 3)
    (h : S3x128x64.Slices ![s, 0, 0] S1x128x64) (hc : S1x128x64.ShapeCasts S128x64) (hb : FTy.bits .bf16 < FTy.bits .f32)
    (d : Fin 128) (e : Fin 64) :
    (truncf .bf16 (shapeCast S128x64 (extractStridedSlice S1x128x64 ![s, 0, 0] W h) hc) hb : FVec Ideal S128x64 .bf16) (ix2 d e)
      = W (ix3 (⟨s, hs⟩ : Fin 3) d e) := by
  refine (truncf_apply _ hb _).trans ?_
  refine (shapeCast_1ab_ab_apply _ hc d e).trans ?_
  exact extractStridedSlice_apply ![s, 0, 0] W h (ix3 (0 : Fin 1) d e) (ix3 (⟨s, hs⟩ : Fin 3) d e) (fun a => match a with
    | ⟨0, _⟩ => by show s = s + 0; omega
    | ⟨1, _⟩ => by show d.val = 0 + d.val; omega
    | ⟨2, _⟩ => by show e.val = 0 + e.val; omega)

/-- The 4096 activation rows of a block, its unit axis dropped and its format changed: entry `(k, d)` is `XF (0, k, d)`. -/
theorem pay1_apply (XF : Vec Ideal S1x4096x128 .f32) (k : Fin 4096) (d : Fin 128) :
    k0_pay1 (F := Ideal) XF (ix2 k d) = XF (ix3 0 k d) := by
  unfold k0_pay1
  refine (truncf_apply _ bitsLt_bf16_f32 _).trans ?_
  exact shapeCast_1ab_ab_apply XF shapeCasts_S1x4096x128_S4096x128 k d

/-! ## The key and value projections: a 4096 × 128 block times a 128 × 64 matrix -/

theorem proj_lhs_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem proj_lhs_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem proj_rhs_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem proj_rhs_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The product into the zero block, at `(k, e)`: the sum over the 128 contracted coordinates. -/
theorem proj_matmul_apply (A : FVec Ideal S4096x128 .bf16) (B : FVec Ideal S128x64 .bf16) (k : Fin 4096) (e : Fin 64) :
    matmul dot_S4096x128_S128x64_S4096x64_1_0_0_1_n_n none A B (constant (F := Ideal) S4096x64 .f32 0x00000000#32) (ix2 k e)
      = ∑ d : Fin 128, A (ix2 k d) * B (ix2 d e) := by
  refine (Ideal.matmul_constant_zero_apply dot_S4096x128_S128x64_S4096x64_1_0_0_1_n_n none A B (ix2 k e)).trans ?_
  rw [← Equiv.sum_comp (contrEquiv1 dot_S4096x128_S128x64_S4096x64_1_0_0_1_n_n 128 rfl rfl).symm]
  refine Finset.sum_congr rfl fun d _ => ?_
  have hd := contrEquiv1_symm_val dot_S4096x128_S128x64_S4096x64_1_0_0_1_n_n 128 rfl rfl d
  have el : dot_S4096x128_S128x64_S4096x64_1_0_0_1_n_n.lhsIdx (ix2 k e) ((contrEquiv1 dot_S4096x128_S128x64_S4096x64_1_0_0_1_n_n 128 rfl rfl).symm d) = ix2 k d := funext fun a => Fin.ext (by
    match a with
    | ⟨0, _⟩ => exact proj_lhs_0 _ _
    | ⟨1, _⟩ => exact (proj_lhs_1 _ _).trans hd)
  have er : dot_S4096x128_S128x64_S4096x64_1_0_0_1_n_n.rhsIdx (ix2 k e) ((contrEquiv1 dot_S4096x128_S128x64_S4096x64_1_0_0_1_n_n 128 rfl rfl).symm d) = ix2 d e := funext fun a => Fin.ext (by
    match a with
    | ⟨0, _⟩ => exact (proj_rhs_0 _ _).trans hd
    | ⟨1, _⟩ => exact proj_rhs_1 _ _)
  rw [el, er]

/-- The stored key rows: row `k` of the activations projected by the second weight matrix. -/
theorem pay2_apply (W : Vec Ideal S3x128x64 .f32) (XF : Vec Ideal S1x4096x128 .f32) (k : Fin 4096) (e : Fin 64) :
    k0_pay2 (F := Ideal) W XF (ix2 k e) = Cert.Spec.proj (fun d => XF (ix3 0 k d)) (fun d e' => W (ix3 1 d e')) e := by
  unfold k0_pay2
  refine (congrFun (shapeCast_self _ shapeCasts_S4096x64_S4096x64) (ix2 k e)).trans ?_
  refine (truncf_apply _ bitsLt_bf16_f32 _).trans ?_
  refine (proj_matmul_apply _ _ k e).trans ?_
  unfold Cert.Spec.proj
  refine Finset.sum_congr rfl fun d _ => ?_
  rw [pay1_apply XF k d, wslice_apply W 1 (by decide) slices_S3x128x64_o1_0_0_S1x128x64 shapeCasts_S1x128x64_S128x64 bitsLt_bf16_f32 d e]
  rfl

/-- The stored value rows: row `k` of the activations projected by the third weight matrix. -/
theorem pay3_apply (W : Vec Ideal S3x128x64 .f32) (XF : Vec Ideal S1x4096x128 .f32) (k : Fin 4096) (e : Fin 64) :
    k0_pay3 (F := Ideal) W XF (ix2 k e) = Cert.Spec.proj (fun d => XF (ix3 0 k d)) (fun d e' => W (ix3 2 d e')) e := by
  unfold k0_pay3
  refine (congrFun (shapeCast_self _ shapeCasts_S4096x64_S4096x64) (ix2 k e)).trans ?_
  refine (truncf_apply _ bitsLt_bf16_f32 _).trans ?_
  refine (proj_matmul_apply _ _ k e).trans ?_
  unfold Cert.Spec.proj
  refine Finset.sum_congr rfl fun d _ => ?_
  rw [pay1_apply XF k d, wslice_apply W 2 (by decide) slices_S3x128x64_o2_0_0_S1x128x64 shapeCasts_S1x128x64_S128x64 bitsLt_bf16_f32 d e]
  rfl

/-! ## The keepdims column: a vector as a one-column matrix, and that column spread over a row -/

/-- A vector of `a` entries viewed as an `a × 1` matrix reads, at `(i, u)`, entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The query projection: a 256 × 128 block times a 128 × 64 matrix -/

theorem query_lhs_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem query_lhs_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem query_rhs_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem query_rhs_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The product into the zero block, at `(r, e)`: the sum over the 128 contracted coordinates. -/
theorem query_matmul_apply (A : FVec Ideal S256x128 .bf16) (B : FVec Ideal S128x64 .bf16) (r : Fin 256) (e : Fin 64) :
    matmul dot_S256x128_S128x64_S256x64_1_0_0_1_n_n none A B (constant (F := Ideal) S256x64 .f32 0x00000000#32) (ix2 r e)
      = ∑ d : Fin 128, A (ix2 r d) * B (ix2 d e) := by
  refine (Ideal.matmul_constant_zero_apply dot_S256x128_S128x64_S256x64_1_0_0_1_n_n none A B (ix2 r e)).trans ?_
  rw [← Equiv.sum_comp (contrEquiv1 dot_S256x128_S128x64_S256x64_1_0_0_1_n_n 128 rfl rfl).symm]
  refine Finset.sum_congr rfl fun d _ => ?_
  have hd := contrEquiv1_symm_val dot_S256x128_S128x64_S256x64_1_0_0_1_n_n 128 rfl rfl d
  have el : dot_S256x128_S128x64_S256x64_1_0_0_1_n_n.lhsIdx (ix2 r e) ((contrEquiv1 dot_S256x128_S128x64_S256x64_1_0_0_1_n_n 128 rfl rfl).symm d) = ix2 r d := funext fun a => Fin.ext (by
    match a with
    | ⟨0, _⟩ => exact query_lhs_0 _ _
    | ⟨1, _⟩ => exact (query_lhs_1 _ _).trans hd)
  have er : dot_S256x128_S128x64_S256x64_1_0_0_1_n_n.rhsIdx (ix2 r e) ((contrEquiv1 dot_S256x128_S128x64_S256x64_1_0_0_1_n_n 128 rfl rfl).symm d) = ix2 d e := funext fun a => Fin.ext (by
    match a with
    | ⟨0, _⟩ => exact (query_rhs_0 _ _).trans hd
    | ⟨1, _⟩ => exact query_rhs_1 _ _)
  rw [el, er]

/-! ## The scores: a 256 × 64 block times the transpose of a 4096 × 64 block -/

theorem score_lhs_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem score_lhs_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem score_rhs_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem score_rhs_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- The product into the zero block, at `(r, k)`: row `r` of the left block against row `k` of the right block. -/
theorem score_matmul_apply (A : FVec Ideal S256x64 .bf16) (B : FVec Ideal S4096x64 .bf16) (r : Fin 256) (k : Fin 4096) :
    matmul dot_S256x64_S4096x64_S256x4096_1_1_0_0_n_n none A B (constant (F := Ideal) S256x4096 .f32 0x00000000#32) (ix2 r k)
      = ∑ e : Fin 64, A (ix2 r e) * B (ix2 k e) := by
  refine (Ideal.matmul_constant_zero_apply dot_S256x64_S4096x64_S256x4096_1_1_0_0_n_n none A B (ix2 r k)).trans ?_
  rw [← Equiv.sum_comp (contrEquiv1 dot_S256x64_S4096x64_S256x4096_1_1_0_0_n_n 64 rfl rfl).symm]
  refine Finset.sum_congr rfl fun e _ => ?_
  have he := contrEquiv1_symm_val dot_S256x64_S4096x64_S256x4096_1_1_0_0_n_n 64 rfl rfl e
  have el : dot_S256x64_S4096x64_S256x4096_1_1_0_0_n_n.lhsIdx (ix2 r k) ((contrEquiv1 dot_S256x64_S4096x64_S256x4096_1_1_0_0_n_n 64 rfl rfl).symm e) = ix2 r e := funext fun a => Fin.ext (by
    match a with
    | ⟨0, _⟩ => exact score_lhs_0 _ _
    | ⟨1, _⟩ => exact (score_lhs_1 _ _).trans he)
  have er : dot_S256x64_S4096x64_S256x4096_1_1_0_0_n_n.rhsIdx (ix2 r k) ((contrEquiv1 dot_S256x64_S4096x64_S256x4096_1_1_0_0_n_n 64 rfl rfl).symm e) = ix2 k e := funext fun a => Fin.ext (by
    match a with
    | ⟨0, _⟩ => exact score_rhs_0 _ _
    | ⟨1, _⟩ => exact (score_rhs_1 _ _).trans he)
  rw [el, er]

/-! ## The weighted sum of the value rows: a 256 × 4096 block times a 4096 × 64 block -/

theorem mix_lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem mix_lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem mix_rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem mix_rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The product into the zero block, at `(r, e)`: the sum over the 4096 contracted coordinates. -/
theorem mix_matmul_apply (A : FVec Ideal S256x4096 .bf16) (B : FVec Ideal S4096x64 .bf16) (r : Fin 256) (e : Fin 64) :
    matmul dot_S256x4096_S4096x64_S256x64_1_0_0_1_n_n none A B (constant (F := Ideal) S256x64 .f32 0x00000000#32) (ix2 r e)
      = ∑ k : Fin 4096, A (ix2 r k) * B (ix2 k e) := by
  refine (Ideal.matmul_constant_zero_apply dot_S256x4096_S4096x64_S256x64_1_0_0_1_n_n none A B (ix2 r e)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r e) ((contrEquiv1 dot_S256x4096_S4096x64_S256x64_1_0_0_1_n_n 4096 rfl rfl).symm k) = ix2 r k := funext fun a => Fin.ext (by
    match a with
    | ⟨0, _⟩ => exact mix_lhs_0 _ _
    | ⟨1, _⟩ => exact (mix_lhs_1 _ _).trans hk)
  have er : dot_S256x4096_S4096x64_S256x64_1_0_0_1_n_n.rhsIdx (ix2 r e) ((contrEquiv1 dot_S256x4096_S4096x64_S256x64_1_0_0_1_n_n 4096 rfl rfl).symm k) = ix2 k e := funext fun a => Fin.ext (by
    match a with
    | ⟨0, _⟩ => exact (mix_rhs_0 _ _).trans hk
    | ⟨1, _⟩ => exact mix_rhs_1 _ _)
  rw [el, er]

/-! ## A row's maximum and a row's sum -/

/-- The maximum over a row of 4096 entries, folded from the word of `-inf`. -/
theorem rowMax_apply (X : FVec Ideal S256x4096 .f32) (h : S256x4096.Reduces [1] S256) (hφ : FKind.Formats .f32)
    (hacc : (0xFF800000#32 : BitVec 32) = FKind.maximumf.neutral .f32 hφ) (r : Fin 256) :
    multiReduction (F := Ideal) .maximumf [1] S256 X 0xFF800000#32 h hφ hacc (ix1 r) = Cert.Spec.rowMax (fun k => X (ix2 r k)) := by
  refine (Ideal.multiReduction_maximumf_single X 0xFF800000#32 h hφ hacc (ix1 r)).trans ?_
  unfold Cert.Spec.rowMax Cert.Spec.negInf
  refine congrArg (fun f : Fin 4096 → EReal => (Finset.univ : Finset (Fin 4096)).fold max (Ideal.ofBits .f32 0xFF800000#32) f) ?_
  funext k
  exact congrArg X (funext fun a => Fin.ext (by match a with | ⟨0, _⟩ => rfl | ⟨1, _⟩ => rfl))

/-- The sum over a row of 4096 entries. -/
theorem rowSum_apply (X : FVec Ideal S256x4096 .f32) (h : S256x4096.Reduces [1] S256) (hφ : FKind.Formats .f32)
    (hacc : (0x00000000#32 : BitVec 32) = FKind.add.neutral .f32 hφ) (r : Fin 256) :
    multiReduction (F := Ideal) .add [1] S256 X 0x00000000#32 h hφ hacc (ix1 r) = ∑ k : Fin 4096, X (ix2 r k) := by
  refine (Ideal.multiReduction_add_single X 0x00000000#32 h hφ hacc (ix1 r)).trans ?_
  refine Finset.sum_congr rfl fun k _ => ?_
  exact congrArg X (funext fun a => Fin.ext (by match a with | ⟨0, _⟩ => rfl | ⟨1, _⟩ => rfl))

/-! ## The stages of one output row -/

/-- The scaled scores of a query block against the key rows: at `(r, k)` the dot product of query row `r` with key row `k`, times
    the word of 0.125. -/
theorem scores_apply (Q : FVec Ideal S256x64 .bf16) (Kc : FVec Ideal S4096x64 .bf16) (r : Fin 256) (k : Fin 4096)
    (q : Fin 64 → EReal) (hq : ∀ e, Q (ix2 r e) = q e) :
    mulf (matmul dot_S256x64_S4096x64_S256x4096_1_1_0_0_n_n none Q Kc (constant (F := Ideal) S256x4096 .f32 0x00000000#32))
        (broadcast S256x4096 (Scalar.ofBits (F := Ideal) .f32 0x3E000000#32)) (ix2 r k)
      = Cert.Spec.sK q (fun k e' => Kc (ix2 k e')) k := by
  refine (mulf_apply _ _ _).trans ?_
  unfold Cert.Spec.sK Cert.Spec.c8
  refine congrArg₂ (· * ·) ?_ rfl
  refine (score_matmul_apply Q Kc r k).trans ?_
  exact Finset.sum_congr rfl fun e _ => congrArg (· * Kc (ix2 k e)) (hq e)

/-- The weight of key `k` for row `r`: the exponential of the score less the row's maximum, the maximum being a column spread
    back over the row. -/
theorem weight_apply (S : FVec Ideal S256x4096 .f32) (h : S256x4096.Reduces [1] S256) (hφ : FKind.Formats .f32)
    (hacc : (0xFF800000#32 : BitVec 32) = FKind.maximumf.neutral .f32 hφ) (hc : S256.ShapeCasts S256x1)
    (hb : S256x1.Broadcasts S256x4096) (r : Fin 256) (k : Fin 4096) (s : Fin 4096 → EReal) (hs : ∀ k, S (ix2 r k) = s k) :
    exp (subf S (broadcastTo S256x4096 (shapeCast S256x1 (multiReduction (F := Ideal) .maximumf [1] S256 S 0xFF800000#32 h hφ hacc) hc) hb)) (ix2 r k)
      = Ideal.exp (s k - Cert.Spec.rowMax s) := by
  have hm : broadcastTo S256x4096 (shapeCast S256x1 (multiReduction (F := Ideal) .maximumf [1] S256 S 0xFF800000#32 h hφ hacc) hc) hb (ix2 r k)
      = Cert.Spec.rowMax s := by
    refine (broadcastTo_a1_ab_apply _ hb r k).trans ?_
    refine (shapeCast_a_a1_apply _ hc r 0).trans ?_
    refine (rowMax_apply S h hφ hacc r).trans ?_
    exact congrArg Cert.Spec.rowMax (funext hs)
  show Ideal.exp (S (ix2 r k) - _) = _
  rw [hm, hs k]

/-- The weighted sum of the value rows divided by the sum of the weights, the divisor being a column spread over the row, and the
    quotient stored as a one-block array. -/
theorem normalise_apply (Wt : FVec Ideal S256x4096 .f32) (Vc : FVec Ideal S4096x64 .bf16) (h : S256x4096.Reduces [1] S256)
    (hφ : FKind.Formats .f32) (hacc : (0x00000000#32 : BitVec 32) = FKind.add.neutral .f32 hφ) (hc : S256.ShapeCasts S256x1)
    (hb : S256x1.Broadcasts S256x64) (hb16 : FTy.bits .bf16 < FTy.bits .f32) (hc3 : S256x64.ShapeCasts S1x256x64)
    (r : Fin 256) (e : Fin 64) (w : Fin 4096 → EReal) (hw : ∀ k, Wt (ix2 r k) = w k) :
    shapeCast S1x256x64
        (divf (matmul dot_S256x4096_S4096x64_S256x64_1_0_0_1_n_n none (truncf .bf16 Wt hb16) Vc (constant (F := Ideal) S256x64 .f32 0x00000000#32))
          (broadcastTo S256x64 (shapeCast S256x1 (multiReduction (F := Ideal) .add [1] S256 Wt 0x00000000#32 h hφ hacc) hc) hb))
        hc3 (ix3 0 r e)
      = Ideal.div (∑ k : Fin 4096, w k * Vc (ix2 k e)) (∑ k : Fin 4096, w k) := by
  refine (shapeCast_ab_1ab_apply _ hc3 0 r e).trans ?_
  refine (divf_apply _ _ _).trans ?_
  refine congrArg₂ Ideal.div ?_ ?_
  · refine (mix_matmul_apply _ Vc r e).trans ?_
    exact Finset.sum_congr rfl fun k _ => congrArg (· * Vc (ix2 k e)) (hw k)
  · refine (broadcastTo_a1_ab_apply _ hb r e).trans ?_
    refine (shapeCast_a_a1_apply _ hc r 0).trans ?_
    refine (rowSum_apply Wt h hφ hacc r).trans ?_
    exact Finset.sum_congr rfl fun k _ => hw k

/-- The stored output row: the attention of the projected query row against the stored key rows and value rows. -/
theorem pay4_apply (W : Vec Ideal S3x128x64 .f32) (XT : Vec Ideal S1x256x128 .f32) (Kc Vc : Vec Ideal S4096x64 .bf16) (r : Fin 256) (e : Fin 64) :
    k0_pay4 (F := Ideal) W XT Kc Vc (ix3 0 r e)
      = Cert.Spec.attK (Cert.Spec.proj (fun d => XT (ix3 0 r d)) (fun d e' => W (ix3 0 d e'))) (fun k e' => Kc (ix2 k e')) (fun k e' => Vc (ix2 k e')) e := by
  unfold k0_pay4
  unfold Cert.Spec.attK
  refine normalise_apply _ Vc reduces_S256x4096_S256 (.inl rfl) rfl shapeCasts_S256_S256x1 broadcasts_S256x1_S256x64 bitsLt_bf16_f32
    shapeCasts_S256x64_S1x256x64 r e _ (fun k => ?_)
  refine weight_apply _ reduces_S256x4096_S256 (.inl rfl) rfl shapeCasts_S256_S256x1 broadcasts_S256x1_S256x4096 r k _ (fun k' => ?_)
  refine scores_apply _ Kc r k' _ (fun e' => ?_)
  refine (truncf_apply _ bitsLt_bf16_f32 _).trans ?_
  refine (query_matmul_apply _ _ r e').trans ?_
  unfold Cert.Spec.proj
  refine Finset.sum_congr rfl fun d _ => congrArg₂ (· * ·) ?_ ?_
  · refine (truncf_apply _ bitsLt_bf16_f32 _).trans ?_
    exact shapeCast_1ab_ab_apply XT shapeCasts_S1x256x128_S256x128 r d
  · exact wslice_apply W 0 (by decide) slices_S3x128x64_o0_0_0_S1x128x64 shapeCasts_S1x128x64_S128x64 bitsLt_bf16_f32 d e'

end Cert.KernelIdeal.Payload

end
-- ==== Proof.FrameKI.Final.lean ====
/-
  From the blocks to the array: each window's block at a grid point as entries of the argument arrays, the output
  tile a point writes back as the kernel's arrangement of attention at the tile's rows, and the tiles of the 64
  points covering the whole result.
-/
import proofs.«405519_j91182155694380_3_alg».proof.Proof.FrameKI.Data
import proofs.«405519_j91182155694380_3_alg».proof.Proof.Payload
import proofs.«405519_j91182155694380_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The index maps over the grid: point t is batch t / 16, query tile t % 16 -/

/-- The query tile's window: block (t / 16, t % 16, 0). -/
theorem idx_tile : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, win0_0.index t (0 : Fin 3) = t.val / 16 ∧ win0_0.index t (1 : Fin 3) = t.val % 16
    ∧ win0_0.index t (2 : Fin 3) = 0)

/-- The batch's full activations: block (t / 16, 0, 0). -/
theorem idx_full : ∀ t : Fin cfg0.N, win0_1.index t (0 : Fin 3) = t.val / 16 ∧ win0_1.index t (1 : Fin 3) = 0
    ∧ win0_1.index t (2 : Fin 3) = 0 :=
  (by decide +kernel : ∀ t : Fin grid0.N, win0_1.index t (0 : Fin 3) = t.val / 16 ∧ win0_1.index t (1 : Fin 3) = 0
    ∧ win0_1.index t (2 : Fin 3) = 0)

/-- The weights: block (0, 0, 0). -/
theorem idx_wts : ∀ t : Fin cfg0.N, win0_2.index t (0 : Fin 3) = 0 ∧ win0_2.index t (1 : Fin 3) = 0
    ∧ win0_2.index t (2 : Fin 3) = 0 :=
  (by decide +kernel : ∀ t : Fin grid0.N, win0_2.index t (0 : Fin 3) = 0 ∧ win0_2.index t (1 : Fin 3) = 0
    ∧ win0_2.index t (2 : Fin 3) = 0)

/-- The output tile: block (t / 16, t % 16, 0). -/
theorem idx_out : ∀ t : Fin cfg0.N, win0_3.index t (0 : Fin 3) = t.val / 16 ∧ win0_3.index t (1 : Fin 3) = t.val % 16
    ∧ win0_3.index t (2 : Fin 3) = 0 :=
  (by decide +kernel : ∀ t : Fin grid0.N, win0_3.index t (0 : Fin 3) = t.val / 16 ∧ win0_3.index t (1 : Fin 3) = t.val % 16
    ∧ win0_3.index t (2 : Fin 3) = 0)

/-! ## Each input block as entries of its array -/

section Blocks
variable (m : (ℓ : Loc nD τ sig) → Buf (Elt F) ℓ)

/-- The query tile at point t: rows 256 (t % 16) … of batch t / 16 of the activations. -/
theorem xtile_apply (c : Dev nD) (t : Fin cfg0.N) (y : S1x256x128.Idx) (k : S4x4096x128.Idx)
    (h0 : (k 0).val = t.val / 16) (h1 : (k 1).val = 256 * (t.val % 16) + (y 1).val) (h2 : (k 2).val = (y 2).val) :
    (iblk m c 0 t : Vec F S1x256x128 .f32) y = (V m c main_arg0 : S4x4096x128.Idx → Elt F .f32) k := by
  obtain ⟨e0, e1, e2⟩ := idx_tile t
  have hy0 : (y 0).val < 1 := (y 0).isLt
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 128 + 1 * (y 2).val = (k 2).val; omega

/-- The full block at point t: all rows of batch t / 16 of the activations. -/
theorem xfull_apply (c : Dev nD) (t : Fin cfg0.N) (y : S1x4096x128.Idx) (k : S4x4096x128.Idx)
    (h0 : (k 0).val = t.val / 16) (h1 : (k 1).val = (y 1).val) (h2 : (k 2).val = (y 2).val) :
    (iblk m c 1 t : Vec F S1x4096x128 .f32) y = (V m c main_arg0 : S4x4096x128.Idx → Elt F .f32) k := by
  obtain ⟨e0, e1, e2⟩ := idx_full t
  have hy0 : (y 0).val < 1 := (y 0).isLt
  unfold iblk
  rw [View.read_apply]
  show V m c main_arg0 _ = V m c main_arg0 _
  refine congrArg (V m c main_arg0) (funext fun a => Fin.ext ?_)
  match a with
  | ⟨0, _⟩ => show win0_1.index t (0 : Fin 3) * 1 + 1 * (y 0).val = (k 0).val; omega
  | ⟨1, _⟩ => show win0_1.index t (1 : Fin 3) * 4096 + 1 * (y 1).val = (k 1).val; omega
  | ⟨2, _⟩ => show win0_1.index t (2 : Fin 3) * 128 + 1 * (y 2).val = (k 2).val; omega

/-- The weights' block at every point: the whole stack. -/
theorem wts_apply (c : Dev nD) (t : Fin cfg0.N) (y : S3x128x64.Idx) :
    (iblk m c 2 t : Vec F S3x128x64 .f32) y = (V m c main_arg1 : S3x128x64.Idx → Elt F .f32) y := by
  obtain ⟨e0, e1, e2⟩ := idx_wts t
  unfold iblk
  rw [View.read_apply]
  show V m c main_arg1 _ = V m c main_arg1 _
  refine congrArg (V m c main_arg1) (funext fun a => Fin.ext ?_)
  match a with
  | ⟨0, _⟩ => show win0_2.index t (0 : Fin 3) * 3 + 1 * (y 0).val = (y 0).val; omega
  | ⟨1, _⟩ => show win0_2.index t (1 : Fin 3) * 128 + 1 * (y 1).val = (y 1).val; omega
  | ⟨2, _⟩ => show win0_2.index t (2 : Fin 3) * 64 + 1 * (y 2).val = (y 2).val; omega

end Blocks

/-! ## The result array, and what one point writes back -/

/-- The kernel's arrangement of attention as one function of the argument arrays, entry by entry. -/
def GKarr (x : S4x4096x128.Idx → EReal) (w : S3x128x64.Idx → EReal) : S4x4096x64.Idx → EReal :=
  fun j => Cert.Spec.GK x w (j 0) (j 1) (j 2)

theorem GKarr_ix3 (x : S4x4096x128.Idx → EReal) (w : S3x128x64.Idx → EReal) (b : Fin 4) (r : Fin 4096) (e : Fin 64) :
    GKarr x w (ix3 b r e) = Cert.Spec.GK x w b r e := rfl

/-- The same at an index given by its coordinates' values. -/
theorem GKarr_apply (x : S4x4096x128.Idx → EReal) (w : S3x128x64.Idx → EReal) (j : S4x4096x64.Idx)
    (b : Fin 4) (r : Fin 4096) (e : Fin 64) (h0 : (j 0).val = b.val) (h1 : (j 1).val = r.val) (h2 : (j 2).val = e.val) :
    GKarr x w j = Cert.Spec.GK x w b r e := by
  obtain rfl : b = j 0 := Fin.ext h0.symm
  obtain rfl : r = j 1 := Fin.ext h1.symm
  obtain rfl : e = j 2 := Fin.ext h2.symm
  rfl

/-- The body's output tile from blocks that are entries of the arrays: row r' of the tile, the tile's rows being
    rows of batch b of the activations with row r' the batch's row r, is the attention of row r of the batch. -/
theorem out_point (W : Vec Ideal S3x128x64 .f32) (XT : Vec Ideal S1x256x128 .f32) (XF : Vec Ideal S1x4096x128 .f32)
    (x : S4x4096x128.Idx → EReal) (w : S3x128x64.Idx → EReal) (b : Fin 4) (r : Fin 4096) (r' : Fin 256) (e : Fin 64)
    (hW : ∀ (s : Fin 3) (d : Fin 128) (e' : Fin 64), W (ix3 s d e') = w (ix3 s d e'))
    (hXT : ∀ d : Fin 128, XT (ix3 0 r' d) = x (ix3 b r d))
    (hXF : ∀ (k : Fin 4096) (d : Fin 128), XF (ix3 0 k d) = x (ix3 b k d)) :
    k0_pay4 (F := Ideal) W XT (k0_pay2 (F := Ideal) W XF) (k0_pay3 (F := Ideal) W XF) (ix3 0 r' e) = Cert.Spec.GK x w b r e := by
  rw [Cert.KernelIdeal.Payload.pay4_apply]
  have hq : Cert.Spec.proj (fun d => XT (ix3 0 r' d)) (fun d e' => W (ix3 0 d e')) = Cert.Spec.Qf x w b r :=
    funext fun e' => by
      show (∑ d : Fin 128, XT (ix3 0 r' d) * W (ix3 0 d e')) = ∑ d : Fin 128, x (ix3 b r d) * w (ix3 0 d e')
      exact Finset.sum_congr rfl fun d _ => by rw [hXT d, hW 0 d e']
  have hk : (fun (k : Fin 4096) (e' : Fin 64) => k0_pay2 (F := Ideal) W XF (ix2 k e')) = Cert.Spec.Kf x w b :=
    funext fun k => funext fun e' => by
      rw [Cert.KernelIdeal.Payload.pay2_apply]
      show (∑ d : Fin 128, XF (ix3 0 k d) * W (ix3 1 d e')) = ∑ d : Fin 128, x (ix3 b k d) * w (ix3 1 d e')
      exact Finset.sum_congr rfl fun d _ => by rw [hXF k d, hW 1 d e']
  have hv : (fun (k : Fin 4096) (e' : Fin 64) => k0_pay3 (F := Ideal) W XF (ix2 k e')) = Cert.Spec.Vf x w b :=
    funext fun k => funext fun e' => by
      rw [Cert.KernelIdeal.Payload.pay3_apply]
      show (∑ d : Fin 128, XF (ix3 0 k d) * W (ix3 2 d e')) = ∑ d : Fin 128, x (ix3 b k d) * w (ix3 2 d e')
      exact Finset.sum_congr rfl fun d _ => by rw [hXF k d, hW 2 d e']
  rw [hq, hk, hv]
  rfl

section Final
variable (m : (ℓ : Loc nD τ sig) → Buf (Elt Ideal) ℓ)

/-- Row r' of the output tile at point t is the attention of row 256 (t % 16) + r' of batch t / 16. -/
theorem outAt_ix3 (c : Dev nD) (t : Fin cfg0.N) (b : Fin 4) (r : Fin 4096) (r' : Fin 256) (e : Fin 64)
    (h0 : b.val = t.val / 16) (h1 : r.val = 256 * (t.val % 16) + r'.val) :
    (outAt (F := Ideal) m c t : Vec Ideal S1x256x64 .f32) (ix3 0 r' e)
      = Cert.Spec.GK (V m c main_arg0 : S4x4096x128.Idx → EReal) (V m c main_arg1 : S3x128x64.Idx → EReal) b r e := by
  unfold outAt kAt vAt
  refine out_point _ _ _ _ _ b r r' e (fun s d e' => ?_) (fun d => ?_) (fun k d => ?_)
  · exact wts_apply m c t (ix3 s d e')
  · exact xtile_apply m c t (ix3 0 r' d) (ix3 b r d) h0 h1 rfl
  · exact xfull_apply m c t (ix3 0 k d) (ix3 b k d) h0 rfl rfl

/-- The same at an entry of the tile given by its coordinates' values. -/
theorem outAt_apply (c : Dev nD) (t : Fin cfg0.N) (y : S1x256x64.Idx) (b : Fin 4) (r : Fin 4096) (e : Fin 64)
    (h0 : b.val = t.val / 16) (h1 : r.val = 256 * (t.val % 16) + (y 1).val) (h2 : e.val = (y 2).val) :
    (outAt (F := Ideal) m c t : Vec Ideal S1x256x64 .f32) y
      = Cert.Spec.GK (V m c main_arg0 : S4x4096x128.Idx → EReal) (V m c main_arg1 : S3x128x64.Idx → EReal) b r e := by
  have hy0 : (y 0).val < 1 := (y 0).isLt
  have hy : y = ix3 0 (⟨(y 1).val, (y 1).isLt⟩ : Fin 256) (⟨(y 2).val, (y 2).isLt⟩ : Fin 64) := by
    funext a; match a with
    | ⟨0, _⟩ => exact Fin.ext (by show (y 0).val = 0; omega)
    | ⟨1, _⟩ => rfl
    | ⟨2, _⟩ => rfl
  obtain rfl : e = ⟨(y 2).val, (y 2).isLt⟩ := Fin.ext h2
  exact (congrArg (outAt (F := Ideal) m c t : Vec Ideal S1x256x64 .f32) hy).trans
    (outAt_ix3 m c t b r ⟨(y 1).val, (y 1).isLt⟩ _ h0 h1)

/-- What point t writes back is its block of the result array's function. -/
theorem flushed_eq (c : Dev nD) (t : Fin cfg0.N) :
    (dats (F := Ideal) m 0 c).flushed 3 t
      = ((cfg0.win 3).blk t).view.read (Elt Ideal) (GKarr (V m c main_arg0 : S4x4096x128.Idx → EReal) (V m c main_arg1 : S3x128x64.Idx → EReal)) := by
  have hN : t.val < 64 := lt_of_lt_of_eq t.isLt (show cfg0.N = 64 from N_0)
  show (cfg0.win 3).cut (grid0.coords t) ((dats (F := Ideal) m 0 c).after 3 t) = _
  rw [after3]
  obtain ⟨e0, e1, e2⟩ := idx_out t
  funext y
  rw [View.read_apply]
  have hy0 : (y 0).val < 1 := (y 0).isLt
  have hy1 : (y 1).val < 256 := (y 1).isLt
  have hy2 : (y 2).val < 64 := (y 2).isLt
  refine (outAt_apply m c t y ⟨t.val / 16, by omega⟩ ⟨256 * (t.val % 16) + (y 1).val, by omega⟩ ⟨(y 2).val, hy2⟩ rfl rfl rfl).trans ?_
  refine (GKarr_apply _ _ _ _ _ _ ?_ ?_ ?_).symm
  · show win0_3.index t (0 : Fin 3) * 1 + 1 * (y 0).val = t.val / 16; omega
  · show win0_3.index t (1 : Fin 3) * 256 + 1 * (y 1).val = 256 * (t.val % 16) + (y 1).val; omega
  · show win0_3.index t (2 : Fin 3) * 64 + 1 * (y 2).val = (y 2).val; omega

/-- An index of the result is in point t's block iff each coordinate is in the block's range on its axis. -/
theorem mem_blk (t : Fin cfg0.N) (i : S4x4096x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v0).slice (win0_3.rect t)).set ↔ _
  rw [View.set_slice_whole, Rect.mem_set_unit]
  exact Iff.rfl

/-- Row r of batch b is in the block of point 16 b + r / 256. -/
theorem cover (i : S4x4096x64.Idx) :
    ∃ t : Fin cfg0.N, (cfg0.win 3).flush t = true ∧ i ∈ ((cfg0.win 3).blk t).view.set := by
  have hN : cfg0.N = 64 := N_0
  have hi0 : (i 0).val < 4 := (i 0).isLt
  have hi1 : (i 1).val < 4096 := (i 1).isLt
  have hi2 : (i 2).val < 64 := (i 2).isLt
  have hlt : 16 * (i 0).val + (i 1).val / 256 < cfg0.N := by rw [hN]; omega
  obtain ⟨e0, e1, e2⟩ := idx_out ⟨16 * (i 0).val + (i 1).val / 256, hlt⟩
  have ht : (⟨16 * (i 0).val + (i 1).val / 256, hlt⟩ : Fin cfg0.N).val = 16 * (i 0).val + (i 1).val / 256 := rfl
  refine ⟨⟨16 * (i 0).val + (i 1).val / 256, hlt⟩, flush0_3 _, ?_⟩
  rw [mem_blk]
  intro a
  match a with
  | ⟨0, _⟩ =>
    show win0_3.index ⟨16 * (i 0).val + (i 1).val / 256, hlt⟩ (0 : Fin 3) * 1 ≤ (i 0).val
      ∧ (i 0).val < win0_3.index ⟨16 * (i 0).val + (i 1).val / 256, hlt⟩ (0 : Fin 3) * 1 + 1
    omega
  | ⟨1, _⟩ =>
    show win0_3.index ⟨16 * (i 0).val + (i 1).val / 256, hlt⟩ (1 : Fin 3) * 256 ≤ (i 1).val
      ∧ (i 1).val < win0_3.index ⟨16 * (i 0).val + (i 1).val / 256, hlt⟩ (1 : Fin 3) * 256 + 256
    omega
  | ⟨2, _⟩ =>
    show win0_3.index ⟨16 * (i 0).val + (i 1).val / 256, hlt⟩ (2 : Fin 3) * 64 ≤ (i 2).val
      ∧ (i 2).val < win0_3.index ⟨16 * (i 0).val + (i 1).val / 256, hlt⟩ (2 : Fin 3) * 64 + 64
    omega

/-- The result array after the last point: the kernel's arrangement of attention of the argument arrays. -/
theorem final3 (c : Dev nD) :
    (dats (F := Ideal) m 0 c).arrAt 3 cfg0.N
      = GKarr (V m c main_arg0 : S4x4096x128.Idx → EReal) (V m c main_arg1 : S3x128x64.Idx → EReal) :=
  (dats (F := Ideal) m 0 c).arrAt_eq_of_cover 3 (GKarr (V m c main_arg0 : S4x4096x128.Idx → EReal) (V m c main_arg1 : S3x128x64.Idx → EReal))
    (fun t _ => flushed_eq m c t) cover

end Final

end Cert.KernelIdeal.Hand

end
-- ==== Proof.RefValue.lean ====
/-
  The reference's result read at one index: projections of the activations' rows by the three stacked weight
  matrices, the scores of a query row against the key rows divided by the square root of 64, the row's maximum,
  the exponential weights and their sum, and the sum over the keys of the normalised weights times the value rows.
-/
import proofs.«405519_j91182155694380_3_alg».proof.Proof.Gen.ReferenceIdeal.Run
import proofs.«405519_j91182155694380_3_alg».proof.Proof.Gen.ReferenceIdeal.Read
import proofs.«405519_j91182155694380_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The three weight matrices: a slice of the stacked weights, its unit axis dropped -/

/-- Matrix 0 of the stack at (d, e). -/
theorem wq_apply (w : FVec Ideal S3x128x64 .f32) (d : Fin 128) (e : Fin 64) :
    val_main_v1 (F := Ideal) w (ix2 d e) = w (ix3 0 d e) := by
  rw [val_main_v1_apply, val_main_v0_apply]
  refine congrArg w (funext fun a => Fin.ext ?_)
  have hd := d.isLt
  have he := e.isLt
  match a with
  | ⟨0, _⟩ => rfl
  | ⟨1, _⟩ => show (d.val * 64 + e.val) / 64 % 128 = d.val; omega
  | ⟨2, _⟩ => show (d.val * 64 + e.val) % 64 = e.val; omega

/-- Matrix 1 of the stack at (d, e). -/
theorem wk_apply (w : FVec Ideal S3x128x64 .f32) (d : Fin 128) (e : Fin 64) :
    val_main_v4 (F := Ideal) w (ix2 d e) = w (ix3 1 d e) := by
  rw [val_main_v4_apply, val_main_v3_apply]
  refine congrArg w (funext fun a => Fin.ext ?_)
  have hd := d.isLt
  have he := e.isLt
  match a with
  | ⟨0, _⟩ => rfl
  | ⟨1, _⟩ => show (d.val * 64 + e.val) / 64 % 128 = d.val; omega
  | ⟨2, _⟩ => show (d.val * 64 + e.val) % 64 = e.val; omega

/-- Matrix 2 of the stack at (d, e). -/
theorem wv_apply (w : FVec Ideal S3x128x64 .f32) (d : Fin 128) (e : Fin 64) :
    val_main_v7 (F := Ideal) w (ix2 d e) = w (ix3 2 d e) := by
  rw [val_main_v7_apply, val_main_v6_apply]
  refine congrArg w (funext fun a => Fin.ext ?_)
  have hd := d.isLt
  have he := e.isLt
  match a with
  | ⟨0, _⟩ => rfl
  | ⟨1, _⟩ => show (d.val * 64 + e.val) / 64 % 128 = d.val; omega
  | ⟨2, _⟩ => show (d.val * 64 + e.val) % 64 = e.val; omega

/-! ## The projections: each row of the activations times a weight matrix -/

/-- The left operand's index of a projection at (b, r, ·), contraction coordinate d, is (b, r, d). -/
theorem lidx_proj (b : Fin 4) (r : Fin 4096) (e : Fin 64) (d : Fin 128) :
    lidx_main_v2 (ix3 b r e) d = ix3 b r d :=
  funext fun a => Fin.ext (by match a with | ⟨0, _⟩ => rfl | ⟨1, _⟩ => rfl | ⟨2, _⟩ => rfl)

/-- The right operand's index is (d, e). -/
theorem ridx_proj (b : Fin 4) (r : Fin 4096) (e : Fin 64) (d : Fin 128) :
    ridx_main_v2 (ix3 b r e) d = ix2 d e :=
  funext fun a => Fin.ext (by match a with | ⟨0, _⟩ => rfl | ⟨1, _⟩ => rfl)

/-- The query projection at (b, r, e). -/
theorem q_apply (x : FVec Ideal S4x4096x128 .f32) (w : FVec Ideal S3x128x64 .f32) (b : Fin 4) (r : Fin 4096) (e : Fin 64) :
    val_main_v2 (F := Ideal) x w (ix3 b r e) = Cert.Spec.Qf x w b r e := by
  rw [val_main_v2_apply]
  show _ = ∑ d : Fin 128, x (ix3 b r d) * w (ix3 0 d e)
  refine Finset.sum_congr rfl fun d _ => ?_
  rw [lidx_proj, ridx_proj, wq_apply]

/-- The key projection at (b, k, e). -/
theorem k_apply (x : FVec Ideal S4x4096x128 .f32) (w : FVec Ideal S3x128x64 .f32) (b : Fin 4) (k : Fin 4096) (e : Fin 64) :
    val_main_v5 (F := Ideal) x w (ix3 b k e) = Cert.Spec.Kf x w b k e := by
  rw [val_main_v5_apply]
  show _ = ∑ d : Fin 128, x (ix3 b k d) * w (ix3 1 d e)
  refine Finset.sum_congr rfl fun d _ => ?_
  show x (lidx_main_v2 (ix3 b k e) d) * val_main_v4 (F := Ideal) w (ridx_main_v2 (ix3 b k e) d) = _
  rw [lidx_proj, ridx_proj, wk_apply]

/-- The value projection at (b, k, e). -/
theorem v_apply (x : FVec Ideal S4x4096x128 .f32) (w : FVec Ideal S3x128x64 .f32) (b : Fin 4) (k : Fin 4096) (e : Fin 64) :
    val_main_v8 (F := Ideal) x w (ix3 b k e) = Cert.Spec.Vf x w b k e := by
  rw [val_main_v8_apply]
  show _ = ∑ d : Fin 128, x (ix3 b k d) * w (ix3 2 d e)
  refine Finset.sum_congr rfl fun d _ => ?_
  show x (lidx_main_v2 (ix3 b k e) d) * val_main_v7 (F := Ideal) w (ridx_main_v2 (ix3 b k e) d) = _
  rw [lidx_proj, ridx_proj, wv_apply]

/-! ## The scores: the batched product of query rows and key rows, divided by the square root of 64 -/

/-- The word of minus infinity is the bottom of the extended reals. -/
theorem negInf_eq_bot : Cert.Spec.negInf = (⊥ : EReal) := by
  simp [Cert.Spec.negInf, Ideal.ofBits, Ideal.ieee]

/-- The score of query row r against key row k in batch b. -/
theorem s_apply (x : FVec Ideal S4x4096x128 .f32) (w : FVec Ideal S3x128x64 .f32) (b : Fin 4) (r k : Fin 4096) :
    val_main_v12 (F := Ideal) x w (ix3 b r k) = Cert.Spec.sR (Cert.Spec.Qf x w b r) (Cert.Spec.Kf x w b) k := by
  rw [val_main_v12_apply, val_main_v9_apply, val_main_v11_apply]
  show Ideal.div _ Cert.Spec.sqrt64 = Ideal.div (∑ e : Fin 64, Cert.Spec.Qf x w b r e * Cert.Spec.Kf x w b k e) Cert.Spec.sqrt64
  refine congrArg (Ideal.div · Cert.Spec.sqrt64) (Finset.sum_congr rfl fun e _ => ?_)
  have hl : lidx_main_v9 (ix3 b r k) e = ix3 b r e :=
    funext fun a => Fin.ext (by match a with | ⟨0, _⟩ => rfl | ⟨1, _⟩ => rfl | ⟨2, _⟩ => rfl)
  have hr : ridx_main_v9 (ix3 b r k) e = ix3 b k e :=
    funext fun a => Fin.ext (by match a with | ⟨0, _⟩ => rfl | ⟨1, _⟩ => rfl | ⟨2, _⟩ => rfl)
  rw [hl, hr, q_apply, k_apply]

/-! ## The row maximum -/

/-- The reduced index (b, r) with key coordinate k put back on the last axis is (b, r, k). -/
theorem lift_row (h : S4x4096x4096.Reduces [2] S4x4096) (b : Fin 4) (r : Fin 4096) (k : Fin (S4x4096x4096.size 2)) :
    h.lift (ix2 b r) k = ix3 b r (⟨k.val, k.isLt⟩ : Fin 4096) :=
  funext fun a => Fin.ext (by match a with | ⟨0, _⟩ => rfl | ⟨1, _⟩ => rfl | ⟨2, _⟩ => rfl)

/-- The maximum over the keys of row (b, r) of the scores, folded from minus infinity. -/
theorem m_apply (x : FVec Ideal S4x4096x128 .f32) (w : FVec Ideal S3x128x64 .f32) (b : Fin 4) (r : Fin 4096) :
    val_main_v13 (F := Ideal) x w (ix2 b r)
      = Cert.Spec.rowMax (Cert.Spec.sR (Cert.Spec.Qf x w b r) (Cert.Spec.Kf x w b)) := by
  have h : S4x4096x4096.Reduces [2] S4x4096 := by decide
  unfold val_main_v13
  rw [Host.reduce_eq_fold_single FloatOps.maximumf _ _ reducesTo_S4x4096x4096_S4x4096_d2 h h_S_]
  have hf : (val_main_v12 (F := Ideal) x w ∘ h.lift (ix2 b r))
      = Cert.Spec.sR (Cert.Spec.Qf x w b r) (Cert.Spec.Kf x w b) :=
    funext fun k => by
      show val_main_v12 (F := Ideal) x w (h.lift (ix2 b r) k) = _
      rw [lift_row, s_apply]
      rfl
  rw [hf]
  rfl

/-- The reference takes the maximum of that with a row of minus infinities: the same number. -/
theorem m'_apply (x : FVec Ideal S4x4096x128 .f32) (w : FVec Ideal S3x128x64 .f32) (b : Fin 4) (r : Fin 4096) :
    val_main_v15 (F := Ideal) x w (ix2 b r)
      = Cert.Spec.rowMax (Cert.Spec.sR (Cert.Spec.Qf x w b r) (Cert.Spec.Kf x w b)) := by
  rw [val_main_v15_apply, val_main_v14_apply, m_apply]
  show max Cert.Spec.negInf _ = _
  rw [negInf_eq_bot]
  exact max_eq_right bot_le

/-- Broadcast along the keys: every (b, r, k) reads row (b, r)'s maximum. -/
theorem mb_apply (x : FVec Ideal S4x4096x128 .f32) (w : FVec Ideal S3x128x64 .f32) (b : Fin 4) (r k : Fin 4096) :
    val_main_v17 (F := Ideal) x w (ix3 b r k)
      = Cert.Spec.rowMax (Cert.Spec.sR (Cert.Spec.Qf x w b r) (Cert.Spec.Kf x w b)) := by
  rw [val_main_v17_apply, val_main_v16_apply]
  have hi : idx_main_v16 (idx_main_v17 (ix3 b r k)) = ix2 b r :=
    funext fun a => Fin.ext (by match a with | ⟨0, _⟩ => rfl | ⟨1, _⟩ => rfl)
  rw [hi, m'_apply]

/-! ## The weights: the exponential of each score less its row's maximum, and their sum -/

/-- The weight of key k for query row (b, r). -/
theorem p_apply (x : FVec Ideal S4x4096x128 .f32) (w : FVec Ideal S3x128x64 .f32) (b : Fin 4) (r k : Fin 4096) :
    val_main_v19 (F := Ideal) x w (ix3 b r k)
      = Ideal.exp (Cert.Spec.sR (Cert.Spec.Qf x w b r) (Cert.Spec.Kf x w b) k
          - Cert.Spec.rowMax (Cert.Spec.sR (Cert.Spec.Qf x w b r) (Cert.Spec.Kf x w b))) := by
  rw [val_main_v19_apply, val_main_v18_apply, s_apply, mb_apply]
  rfl

/-- The sum of row (b, r)'s weights. -/
theorem l_apply (x : FVec Ideal S4x4096x128 .f32) (w : FVec Ideal S3x128x64 .f32) (b : Fin 4) (r : Fin 4096) :
    val_main_v20 (F := Ideal) x w (ix2 b r)
      = ∑ k : Fin 4096, Ideal.exp (Cert.Spec.sR (Cert.Spec.Qf x w b r) (Cert.Spec.Kf x w b) k
          - Cert.Spec.rowMax (Cert.Spec.sR (Cert.Spec.Qf x w b r) (Cert.Spec.Kf x w b))) := by
  rw [val_main_v20_apply, val_main_cst_2_apply]
  show Ideal.ofBits .f32 0x00000000#32 + _ = _
  rw [Ideal.ofBits_zero_f32, zero_add]
  refine Finset.sum_congr rfl fun k _ => ?_
  have hi : idx_main_v20 (ix2 b r) k = ix3 b r k :=
    funext fun a => Fin.ext (by match a with | ⟨0, _⟩ => rfl | ⟨1, _⟩ => rfl | ⟨2, _⟩ => rfl)
  rw [hi, p_apply]

/-- Broadcast along the keys: every (b, r, k) reads row (b, r)'s sum. -/
theorem lb_apply (x : FVec Ideal S4x4096x128 .f32) (w : FVec Ideal S3x128x64 .f32) (b : Fin 4) (r k : Fin 4096) :
    val_main_v22 (F := Ideal) x w (ix3 b r k)
      = ∑ k' : Fin 4096, Ideal.exp (Cert.Spec.sR (Cert.Spec.Qf x w b r) (Cert.Spec.Kf x w b) k'
          - Cert.Spec.rowMax (Cert.Spec.sR (Cert.Spec.Qf x w b r) (Cert.Spec.Kf x w b))) := by
  rw [val_main_v22_apply, val_main_v21_apply]
  have hi : idx_main_v21 (idx_main_v22 (ix3 b r k)) = ix2 b r :=
    funext fun a => Fin.ext (by match a with | ⟨0, _⟩ => rfl | ⟨1, _⟩ => rfl)
  rw [hi, l_apply]

/-! ## The result: each weight divided by its row's sum, times the value rows -/

/-- The reference's result at (b, r, e) is the attention of query row (b, r) in the reference's arrangement. -/
theorem ref_value (x : FVec Ideal S4x4096x128 .f32) (w : FVec Ideal S3x128x64 .f32) (b : Fin 4) (r : Fin 4096) (e : Fin 64) :
    Cert.ReferenceIdeal.Read.val_main_v24 (F := Ideal) x w (ix3 b r e) = Cert.Spec.GR x w b r e := by
  rw [val_main_v24_apply]
  show _ = ∑ k : Fin 4096,
    Ideal.div (Ideal.exp (Cert.Spec.sR (Cert.Spec.Qf x w b r) (Cert.Spec.Kf x w b) k
        - Cert.Spec.rowMax (Cert.Spec.sR (Cert.Spec.Qf x w b r) (Cert.Spec.Kf x w b))))
      (∑ k' : Fin 4096, Ideal.exp (Cert.Spec.sR (Cert.Spec.Qf x w b r) (Cert.Spec.Kf x w b) k'
        - Cert.Spec.rowMax (Cert.Spec.sR (Cert.Spec.Qf x w b r) (Cert.Spec.Kf x w b)))) * Cert.Spec.Vf x w b k e
  refine Finset.sum_congr rfl fun k _ => ?_
  have hl : lidx_main_v24 (ix3 b r e) k = ix3 b r k :=
    funext fun a => Fin.ext (by match a with | ⟨0, _⟩ => rfl | ⟨1, _⟩ => rfl | ⟨2, _⟩ => rfl)
  have hr : ridx_main_v24 (ix3 b r e) k = ix3 b k e :=
    funext fun a => Fin.ext (by match a with | ⟨0, _⟩ => rfl | ⟨1, _⟩ => rfl | ⟨2, _⟩ => rfl)
  rw [hl, hr, v_apply, val_main_v23_apply, p_apply, lb_apply]
  rfl

end Cert.ReferenceIdeal.RefValue

end
-- ==== Proof.Algebra.lean ====
/-
  The algebra joining the two arrangements of attention, over the extended reals, for finite inputs.
  The scale 0.125 and the divisor √64 = 8 give the same score; the row maximum of a finite row is a
  real number; each exponential is a positive real, so the sum of the weights is a nonzero real and
  dividing the weighted sum by it is the same as weighting by the normalised probabilities.
-/
import proofs.«405519_j91182155694380_3_alg».proof.Proof.Spec
import Idealize.ShloMosaic.PureOps.Ideal

noncomputable section

namespace Cert.Spec

open Idealize.ShloMosaic Idealize.ShloMosaic.ValueIdx

namespace Algebra

/-! ### The three literal words -/

/-- The word `0x3E000000` denotes the real `1/8`. -/
theorem c8_eq : c8 = (((1 : ℝ) / 8 : ℝ) : EReal) := by
  unfold c8
  simp [Ideal.ofBits, Ideal.ieee, -EReal.coe_mul]; norm_num

/-- The word `0xFF800000` denotes `-∞`. -/
theorem negInf_eq : negInf = ⊥ := by
  unfold negInf
  simp [Ideal.ofBits, Ideal.ieee]

/-- The word `0x42800000` denotes the real `64`. -/
theorem word64_eq : Ideal.ofBits .f32 0x42800000#32 = ((64 : ℝ) : EReal) := by
  simp [Ideal.ofBits, Ideal.ieee, -EReal.coe_mul]; norm_num

/-- `√64 = 8`, since `64 = 8²`. -/
theorem sqrt64_eq : sqrt64 = ((8 : ℝ) : EReal) := by
  unfold sqrt64
  rw [word64_eq, Ideal.sqrt_coe, if_neg (by norm_num)]
  congr 1
  rw [show (64 : ℝ) = 8 ^ 2 by norm_num]
  exact Real.sqrt_sq (by norm_num)

/-! ### Coercions of real expressions -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A finite sum of products of finite numbers is the coercion of the real sum of products. -/
theorem sum_mul_coe {ι : Type*} (s : Finset ι) (f g : ι → ℝ) :
    ∑ i ∈ s, (f i : EReal) * (g i : EReal) = ((∑ i ∈ s, f i * g i : ℝ) : EReal) := by
  rw [coe_sum]
  exact Finset.sum_congr rfl (fun i _ => (EReal.coe_mul _ _).symm)

/-- The exponential of a difference of two reals is the real exponential. -/
theorem exp_sub_coe (a m : ℝ) :
    Ideal.exp ((a : EReal) - (m : EReal)) = ((Real.exp (a - m) : ℝ) : EReal) := by
  rw [← EReal.coe_sub, Ideal.exp_coe]

/-- Dividing a real by a nonzero real is the real quotient. -/
theorem div_coe_coe (a : ℝ) {L : ℝ} (h : L ≠ 0) :
    Ideal.div (a : EReal) (L : EReal) = ((a / L : ℝ) : EReal) := by
  rw [Ideal.div_coe h, ← EReal.coe_mul, mul_one_div]

end Algebra

open Algebra

/-! ### The projection of a finite row is finite -/

theorem proj_finite (xr : Fin 128 → EReal) (w : Fin 128 → Fin 64 → EReal)
    (hx : ∀ d, ∃ r : ℝ, xr d = (r : EReal)) (hw : ∀ d e, ∃ r : ℝ, w d e = (r : EReal)) (e : Fin 64) :
    ∃ r : ℝ, proj xr w e = (r : EReal) := by
  choose fx hfx using hx
  choose fw hfw using hw
  refine ⟨∑ d : Fin 128, fx d * fw d e, ?_⟩
  unfold proj
  rw [← sum_mul_coe]
  exact Finset.sum_congr rfl (fun d _ => by rw [hfx d, hfw d e])

namespace Algebra

/-! ### The two scores agree -/

/-- Dividing by `√64 = 8` is multiplying by `1/8`, whatever the dot product is. -/
theorem sR_eq_sK : sR = sK := by
  funext q K k
  unfold sR sK
  rw [sqrt64_eq, c8_eq, Ideal.div_coe (by norm_num : (8 : ℝ) ≠ 0)]

/-- The score of a finite query row against finite key rows is a real number. -/
theorem sK_finite (q : Fin 64 → EReal) (K : Fin 4096 → Fin 64 → EReal)
    (hq : ∀ e, ∃ r : ℝ, q e = (r : EReal)) (hK : ∀ k e, ∃ r : ℝ, K k e = (r : EReal)) (k : Fin 4096) :
    ∃ r : ℝ, sK q K k = (r : EReal) := by
  choose fq hfq using hq
  choose fK hfK using hK
  refine ⟨(∑ e : Fin 64, fq e * fK k e) * (1 / 8), ?_⟩
  unfold sK
  rw [c8_eq, EReal.coe_mul, ← sum_mul_coe]
  congr 1
  exact Finset.sum_congr rfl (fun e _ => by rw [hfq e, hfK k e])

/-! ### The maximum of a finite row is a real number -/

theorem rowMax_finite (s : Fin 4096 → EReal) (hs : ∀ k, ∃ r : ℝ, s k = (r : EReal)) :
    ∃ m : ℝ, rowMax s = (m : EReal) := by
  have h1 : rowMax s < ⊤ := by
    unfold rowMax
    rw [Finset.fold_max_lt]
    refine ⟨by rw [negInf_eq]; exact bot_lt_top, fun k _ => ?_⟩
    obtain ⟨r, hr⟩ := hs k
    rw [hr]; exact EReal.coe_lt_top r
  have h2 : ⊥ < rowMax s := by
    obtain ⟨r, hr⟩ := hs 0
    have h0 : s 0 ≤ rowMax s := by
      unfold rowMax
      rw [Finset.le_fold_max]
      exact Or.inr ⟨0, Finset.mem_univ _, le_rfl⟩
    exact lt_of_lt_of_le (by rw [hr]; exact EReal.bot_lt_coe r) h0
  exact ⟨(rowMax s).toReal, (EReal.coe_toReal h1.ne h2.ne').symm⟩

/-! ### Normalising the sum, or summing the normalised weights -/

/-- For positive real weights `p` and real values `v`:
    `∑ (p k / ∑ p) * v k = (∑ p k * v k) / ∑ p`, read in the extended reals. -/
theorem att_real (p : Fin 4096 → ℝ) (hp : ∀ k, 0 < p k) (v : Fin 4096 → ℝ) :
    ∑ k : Fin 4096, Ideal.div (p k : EReal) (∑ k' : Fin 4096, (p k' : EReal)) * (v k : EReal)
      = Ideal.div (∑ k : Fin 4096, (p k : EReal) * (v k : EReal)) (∑ k : Fin 4096, (p k : EReal)) := by
  have hL : 0 < ∑ k : Fin 4096, p k :=
    Finset.sum_pos (fun k _ => hp k) ⟨0, Finset.mem_univ _⟩
  have e1 : (∑ k : Fin 4096, (p k : EReal)) = ((∑ k : Fin 4096, p k : ℝ) : EReal) := (coe_sum _ _).symm
  have e2 : (∑ k : Fin 4096, (p k : EReal) * (v k : EReal)) = ((∑ k : Fin 4096, p k * v k : ℝ) : EReal) :=
    sum_mul_coe _ _ _
  have eR : Ideal.div (∑ k : Fin 4096, (p k : EReal) * (v k : EReal)) (∑ k : Fin 4096, (p k : EReal))
      = ∑ k : Fin 4096, ((p k * v k / ∑ k' : Fin 4096, p k' : ℝ) : EReal) := by
    rw [e1, e2, div_coe_coe _ hL.ne', Finset.sum_div, coe_sum]
  rw [eR]
  refine Finset.sum_congr rfl (fun k _ => ?_)
  rw [e1, div_coe_coe _ hL.ne', ← EReal.coe_mul, div_mul_eq_mul_div]

end Algebra

/-! ### The two arrangements of attention agree on finite inputs -/

theorem att_eq (q : Fin 64 → EReal) (K V : Fin 4096 → Fin 64 → EReal)
    (hq : ∀ e, ∃ r : ℝ, q e = (r : EReal)) (hK : ∀ k e, ∃ r : ℝ, K k e = (r : EReal))
    (hV : ∀ k e, ∃ r : ℝ, V k e = (r : EReal)) (e : Fin 64) : attR q K V e = attK q K V e := by
  choose fs hfs using sK_finite q K hq hK
  obtain ⟨m, hm⟩ := rowMax_finite (sK q K) (fun k => ⟨fs k, hfs k⟩)
  choose fV hfV using hV
  unfold attR attK
  rw [sR_eq_sK, hm]
  simp only [hfs, hfV, exp_sub_coe]
  exact att_real (fun k => Real.exp (fs k - m)) (fun k => Real.exp_pos _) (fun k => fV k e)

/-! ### The whole results agree -/

theorem GR_eq_GK (x : (⟨3, ![4, 4096, 128]⟩ : Shape).Idx → EReal) (w : (⟨3, ![3, 128, 64]⟩ : Shape).Idx → EReal)
    (hx : ∀ i, ∃ r : ℝ, x i = (r : EReal)) (hw : ∀ i, ∃ r : ℝ, w i = (r : EReal))
    (b : Fin 4) (r : Fin 4096) (e : Fin 64) : GR x w b r e = GK x w b r e := by
  unfold GR GK
  have hxr : ∀ (b : Fin 4) (k : Fin 4096) (d : Fin 128), ∃ t : ℝ, xrow x b k d = (t : EReal) :=
    fun b k d => hx _
  have hwm : ∀ (s : Fin 3) (d : Fin 128) (e : Fin 64), ∃ t : ℝ, wmat w s d e = (t : EReal) :=
    fun s d e => hw _
  exact att_eq _ _ _
    (fun e => proj_finite _ _ (hxr b r) (hwm 0) e)
    (fun k e => proj_finite _ _ (hxr b k) (hwm 1) e)
    (fun k e => proj_finite _ _ (hxr b k) (hwm 2) e) e

end Cert.Spec

end
-- ==== Proof.Finite.lean ====
/-
  From the stated precondition to finiteness of the arguments. The precondition is the conjunction of two
  statements "every entry has absolute value below +∞", each a reduction by conjunction over all three axes
  of the entrywise comparison |a| < +∞. On the extended reals |a| is max a (-a), and +∞ is the value of the
  word 0x7F800000 (exponent all ones, fraction zero, sign clear). An extended real a with max a (-a) < ⊤
  is neither ⊤ (then max is ⊤) nor ⊥ (then -a is ⊤), so it is the image of a real number.
-/
import proofs.«405519_j91182155694380_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic

noncomputable section

namespace Cert.Finite

open Idealize.ShloMosaic Idealize.ShloMosaic.ValueIdx

/-- The shape of rank zero has exactly one index. -/
instance : Subsingleton Cert.Pre_finite_inputs.S_.Idx := ⟨fun a b => funext fun d => d.elim0⟩

/-- The f32 word with exponent all ones, zero fraction and clear sign denotes +∞. -/
theorem posInf_word : Ideal.ofBits .f32 0x7F800000#32 = (⊤ : EReal) := by
  simp [Ideal.ofBits, Ideal.ieee]

/-- An extended real whose absolute value max a (-a) lies strictly below ⊤ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The comparison word of a strict inequality is 1 exactly when the inequality holds. -/
theorem lt_of_cmp_olt (a b : EReal) (h : Ideal.cmp .olt a b = 1#1) : a < b := by
  unfold Ideal.cmp at h
  by_contra hn
  simp [hn] at h

theorem finite_of_pre [Cert.Pre_finite_inputs.Facts] (x : FVec Ideal Cert.Pre_finite_inputs.S4x4096x128 .f32) (w : FVec Ideal Cert.Pre_finite_inputs.S3x128x64 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn, andi] at h0
  obtain ⟨hx, hw⟩ := IntOp.andi_eq_one.1 h0
  constructor
  · intro i
    have e := Host.reduce_andi_all _ _ _ _ ix0 hx i
    dsimp only [cmpf, Host.absf, broadcastInDim, constant] at e
    rw [Ideal.hostAbsf_def, Ideal.cmpf_def, Ideal.absf_def, Ideal.ofBits_def, posInf_word] at e
    exact real_of_abs_lt_top _ (lt_of_cmp_olt _ _ e)
  · intro i
    have e := Host.reduce_andi_all _ _ _ _ ix0 hw i
    dsimp only [cmpf, Host.absf, broadcastInDim, constant] at e
    rw [Ideal.hostAbsf_def, Ideal.cmpf_def, Ideal.absf_def, Ideal.ofBits_def, posInf_word] at e
    exact real_of_abs_lt_top _ (lt_of_cmp_olt _ _ e)

end Cert.Finite

end
-- ==== Proof.lean ====
/-
  The certificate of a fused attention kernel against its jnp reference.

  The kernel projects queries, keys and values from one activation array with three stacked weight matrices,
  and for each tile of 256 query rows computes softmax(q kᵀ · 0.125) v against all 4096 keys of the batch: the
  keys and values are computed once per batch (at its first tile) into scratch and reused by the batch's other
  fifteen tiles; the weighted sum of the value rows is divided by the sum of the weights. The reference
  divides the scores by √64, normalises each weight, and then sums. Over the extended reals with finite
  inputs these are one function: 0.125 is 1/8 and √64 is 8; every score, maximum and exponential is a real;
  the weights' sum is a positive real, so dividing the sum is summing the quotients.

  The three frames: each program runs to its end, faults nowhere and leaves its arguments unchanged — for the
  two kernel programs from the launch of their one region over a proof data in closed form (the frame modules),
  for the reference from its run read back. The idealization rewrote nothing, so `preserves` is trivial.
-/
import proofs.«405519_j91182155694380_3_alg».proof.Defs
import proofs.«405519_j91182155694380_3_alg».proof.Proof.Gen.Kernel
import proofs.«405519_j91182155694380_3_alg».proof.Proof.Gen.KernelIdeal
import proofs.«405519_j91182155694380_3_alg».proof.Proof.Gen.ReferenceIdeal
import proofs.«405519_j91182155694380_3_alg».proof.Proof.Gen.Pre_finite_inputs
import proofs.«405519_j91182155694380_3_alg».proof.Proof.FrameK.Launch
import proofs.«405519_j91182155694380_3_alg».proof.Proof.FrameKI.Launch
import proofs.«405519_j91182155694380_3_alg».proof.Proof.FrameKI.Final
import proofs.«405519_j91182155694380_3_alg».proof.Proof.RefValue
import proofs.«405519_j91182155694380_3_alg».proof.Proof.Algebra
import proofs.«405519_j91182155694380_3_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both programs end with the attention of every row: the kernel's
    result array is the kernel's arrangement of it (the blocks its 64 points wrote back cover the array), the
    reference's is the reference's arrangement, and on finite inputs the two arrangements are equal. -/
theorem algebraic : Cert.algebraic_KernelIdeal_ReferenceIdeal := by
  intro m ρ m' ρ' hpre hagree
  refine ⟨fun c => (Cert.KernelIdeal.Hand.dats (F := Ideal) m 0 c).arrAt 3 Cert.KernelIdeal.cfg0.N, ?_, ?_⟩
  · exact (θ_run Cert.KernelIdeal.defs _ _).mono
      (fun _ h c => ⟨h c 3, (h c 0).trans (Cert.KernelIdeal.Hand.arrAt_in0 m c), (h c 2).trans (Cert.KernelIdeal.Hand.arrAt_in2 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    obtain ⟨hx, hw⟩ := Cert.Finite.finite_of_pre _ _ (hpre c)
    rw [Cert.ReferenceIdeal.Read.val_main_v24_eq, (hagree c).1, (hagree c).2]
    refine Eq.trans ?_ (Cert.KernelIdeal.Hand.final3 m c).symm
    funext j
    obtain ⟨b, r, e, rfl⟩ : ∃ (b : Fin 4) (r : Fin 4096) (e : Fin 64), j = ix3 b r e := ⟨j 0, j 1, j 2, eq_ix3 j⟩
    rw [Cert.ReferenceIdeal.RefValue.ref_value, Cert.KernelIdeal.Hand.GKarr_ix3]
    exact Cert.Spec.GR_eq_GK _ _ hx hw b r e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
